-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x500000 : Shape := ⟨2, ![2, 500000]⟩
abbrev S500000 : Shape := ⟨1, ![500000]⟩
abbrev S513x342 : Shape := ⟨2, ![513, 342]⟩
abbrev S342 : Shape := ⟨1, ![342]⟩
abbrev S342x171 : Shape := ⟨2, ![342, 171]⟩
abbrev S171 : Shape := ⟨1, ![171]⟩
abbrev S171x1 : Shape := ⟨2, ![171, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S500000 : S_.BroadcastsInDim S500000 (![] : Fin 0 → Fin S500000.rank)
  reducesTo_S500000_S_d0 : S500000.ReducesTo [0] S_
  bcast_S_S513x342 : S_.BroadcastsInDim S513x342 (![] : Fin 0 → Fin S513x342.rank)
  reducesTo_S513x342_S_d0_1 : S513x342.ReducesTo [0, 1] S_
  bcast_S_S342 : S_.BroadcastsInDim S342 (![] : Fin 0 → Fin S342.rank)
  reducesTo_S342_S_d0 : S342.ReducesTo [0] S_
  bcast_S_S342x171 : S_.BroadcastsInDim S342x171 (![] : Fin 0 → Fin S342x171.rank)
  reducesTo_S342x171_S_d0_1 : S342x171.ReducesTo [0, 1] S_
  bcast_S_S171 : S_.BroadcastsInDim S171 (![] : Fin 0 → Fin S171.rank)
  reducesTo_S171_S_d0 : S171.ReducesTo [0] S_
  bcast_S_S171x1 : S_.BroadcastsInDim S171x1 (![] : Fin 0 → Fin S171x1.rank)
  reducesTo_S171x1_S_d0_1 : S171x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg1 : IVec S2x500000 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S2x500000 32 := broadcastInDim S2x500000 ![] bcast_S_S2x500000 main_c_14
  let main_v40 : IVec S2x500000 1 := cmpi .sge main_arg1 main_v39
  let main_c_15 : IVec S_ 32 := constantI S_ 32 100000#32
  let main_v41 : IVec S2x500000 32 := broadcastInDim S2x500000 ![] bcast_S_S2x500000 main_c_15
  let main_v42 : IVec S2x500000 1 := cmpi .slt main_arg1 main_v41
  let main_v43 : IVec S2x500000 1 := andi main_v40 main_v42
  let main_c_16 : IVec S_ 1 := constantI S_ 1 1#1
  let main_v44 : IVec S_ 1 := (fun x v => Host.reduce IntOp.andi x v reducesTo_S2x500000_S_d0_1 h_S_) main_v43 main_c_16
  let main_v45 : IVec S_ 1 := andi main_v38 main_v44
  main_v45

def fn_part1 {F : FTy → Type} [FloatOps F] (main_arg1 : IVec S2x500000 32) (main_arg6 : FVec F S342x171 .f32) (main_arg7 : FVec F S171 .f32) (main_arg8 : FVec F S171x1 .f32) (main_arg9 : FVec F S1 .f32) (main_v13 : IVec S_ 1) (main_v16 : IVec S342 1) : IVec S_ 1 :=
  let main_c_5 : IVec S_ 1 := constantI S_ 1 1#1
  let main_v17 : IVec S_ 1 := (fun x v => Host.reduce IntOp.andi x v reducesTo_S342_S_d0 h_S_) main_v16 main_c_5
  let main_v18 : IVec S_ 1 := andi main_v13 main_v17
  let main_v19 : FVec F S342x171 .f32 := Host.absf main_arg6
  let main_cst_6 : FVec F S_ .f32 := constant S_ .f32 0x7F800000#32
  let main_v20 : FVec F S342x171 .f32 := broadcastInDim S342x171 ![] bcast_S_S342x171 main_cst_6
  let main_v21 : IVec S342x171 1 := cmpf .olt main_v19 main_v20
  let main_c_7 : IVec S_ 1 := constantI S_ 1 1#1
  let main_v22 : IVec S_ 1 := (fun x v => Host.reduce IntOp.andi x v reducesTo_S342x171_S_d0_1 h_S_) main_v21 main_c_7
  let main_v23 : IVec S_ 1 := andi main_v18 main_v22
  let main_v24 : FVec F S171 .f32 := Host.absf main_arg7
  let main_cst_8 : FVec F S_ .f32 := constant S_ .f32 0x7F800000#32
  let main_v25 : FVec F S171 .f32 := broadcastInDim S171 ![] bcast_S_S171 main_cst_8
  let main_v26 : IVec S171 1 := cmpf .olt main_v24 main_v25
  let main_c_9 : IVec S_ 1 := constantI S_ 1 1#1
  let main_v27 : IVec S_ 1 := (fun x v => Host.reduce IntOp.andi x v reducesTo_S171_S_d0 h_S_) main_v26 main_c_9
  let main_v28 : IVec S_ 1 := andi main_v23 main_v27
  let main_v29 : FVec F S171x1 .f32 := Host.absf main_arg8
  let main_cst_10 : FVec F S_ .f32 := constant S_ .f32 0x7F800000#32
  let main_v30 : FVec F S171x1 .f32 := broadcastInDim S171x1 ![] bcast_S_S171x1 main_cst_10
  let main_v31 : IVec S171x1 1 := cmpf .olt main_v29 main_v30
  let main_c_11 : IVec S_ 1 := constantI S_ 1 1#1
  let main_v32 : IVec S_ 1 := (fun x v => Host.reduce IntOp.andi x v reducesTo_S171x1_S_d0_1 h_S_) main_v31 main_c_11
  let main_v33 : IVec S_ 1 := andi main_v28 main_v32
  fn_part2 (F := F) main_arg1 main_arg9 main_v33

def fn {F : FTy → Type} [FloatOps F] (main_arg0 : FVec F S100000x256 .f32) (main_arg1 : IVec S2x500000 32) (main_arg2 : FVec F S500000 .f32) (main_arg3 : IVec S500000 32) (main_arg4 : FVec F S513x342 .f32) (main_arg5 : FVec F S342 .f32) (main_arg6 : FVec F S342x171 .f32) (main_arg7 : FVec F S171 .f32) (main_arg8 : FVec F S171x1 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S513x342 .f32 := Host.absf main_arg4
  let main_cst_2 : FVec F S_ .f32 := constant S_ .f32 0x7F800000#32
  let main_v10 : FVec F S513x342 .f32 := broadcastInDim S513x342 ![] bcast_S_S513x342 main_cst_2
  let main_v11 : IVec S513x342 1 := cmpf .olt main_v9 main_v10
  let main_c_3 : IVec S_ 1 := constantI S_ 1 1#1
  let main_v12 : IVec S_ 1 := (fun x v => Host.reduce IntOp.andi x v reducesTo_S513x342_S_d0_1 h_S_) main_v11 main_c_3
  let main_v13 : IVec S_ 1 := andi main_v8 main_v12
  let main_v14 : FVec F S342 .f32 := Host.absf main_arg5
  let main_cst_4 : FVec F S_ .f32 := constant S_ .f32 0x7F800000#32
  let main_v15 : FVec F S342 .f32 := broadcastInDim S342 ![] bcast_S_S342 main_cst_4
  let main_v16 : IVec S342 1 := cmpf .olt main_v14 main_v15
  fn_part1 (F := F) main_arg1 main_arg6 main_arg7 main_arg8 main_arg9 main_v13 main_v16
-- ==== Kernel.lean ====
abbrev S100000x256 : Shape := ⟨2, ![100000, 256]⟩
abbrev S2x500000 : Shape := ⟨2, ![2, 500000]⟩
abbrev S500000 : Shape := ⟨1, ![500000]⟩
abbrev S513x342 : Shape := ⟨2, ![513, 342]⟩
abbrev S342 : Shape := ⟨1, ![342]⟩
abbrev S342x171 : Shape := ⟨2, ![342, 171]⟩
abbrev S171 : Shape := ⟨1, ![171]⟩
abbrev S171x1 : Shape := ⟨2, ![171, 1]⟩
abbrev S1 : Shape := ⟨1, ![1]⟩
abbrev S1x500000 : Shape := ⟨2, ![1, 500000]⟩
abbrev S_ : Shape := ⟨0, ![]⟩
abbrev S500000x1 : Shape := ⟨2, ![500000, 1]⟩
abbrev S1x1 : Shape := ⟨2, ![1, 1]⟩
abbrev S500000x256 : Shape := ⟨2, ![500000, 256]⟩
abbrev S1x342 : Shape := ⟨2, ![1, 342]⟩
abbrev S1x171 : Shape := ⟨2, ![1, 171]⟩
abbrev S1x64 : Shape := ⟨2, ![1, 64]⟩
abbrev S2000x256 : Shape := ⟨2, ![2000, 256]⟩
abbrev S2000x1 : Shape := ⟨2, ![2000, 1]⟩
abbrev S2000x513 : Shape := ⟨2, ![2000, 513]⟩
abbrev S2000x342 : Shape := ⟨2, ![2000, 342]⟩
abbrev S2000x171 : Shape := ⟨2, ![2000, 171]⟩
abbrev S2000x64 : Shape := ⟨2, ![2000, 64]⟩
abbrev S64 : Shape := ⟨1, ![64]⟩
abbrev S64x1 : Shape := ⟨2, ![64, 1]⟩

abbrev nBuf : Space → Nat
  | .hbm => 67
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x500000, .i32⟩
  | .hbm, ⟨2, _⟩ => ⟨S500000, .f32⟩
  | .hbm, ⟨3, _⟩ => ⟨S500000, .i32⟩
  | .hbm, ⟨4, _⟩ => ⟨S513x342, .f32⟩
  | .hbm, ⟨5, _⟩ => ⟨S342, .f32⟩
  | .hbm, ⟨6, _⟩ => ⟨S342x171, .f32⟩
  | .hbm, ⟨7, _⟩ => ⟨S171, .f32⟩
  | .hbm, ⟨8, _⟩ => ⟨S171x1, .f32⟩
  | .hbm, ⟨9, _⟩ => ⟨S1, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S1, .i32⟩
  | .hbm, ⟨23, _⟩ => ⟨S_, .i32⟩
  | .hbm, ⟨24, _⟩ => ⟨S500000x1, .i32⟩
  | .hbm, ⟨25, _⟩ => ⟨S500000x1, .i1⟩
  | .hbm, ⟨26, _⟩ => ⟨S1x1, .i32⟩
  | .hbm, ⟨27, _⟩ => ⟨S500000x1, .i32⟩
  | .hbm, ⟨28, _⟩ => ⟨S500000x1, .i1⟩
  | .hbm, ⟨29, _⟩ => ⟨S500000x1, .i1⟩
  | .hbm, ⟨30, _⟩ => ⟨S_, .i1⟩
  | .hbm, ⟨31, _⟩ => ⟨S500000, .i1⟩
  | .hbm, ⟨32, _⟩ => ⟨S500000x256, .f32⟩
  | .hbm, ⟨33, _⟩ => ⟨S500000x256, .i1⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S1, .i32⟩
  | .hbm, ⟨46, _⟩ => ⟨S_, .i32⟩
  | .hbm, ⟨47, _⟩ => ⟨S500000x1, .i32⟩
  | .hbm, ⟨48, _⟩ => ⟨S500000x1, .i1⟩
  | .hbm, ⟨49, _⟩ => ⟨S1x1, .i32⟩
  | .hbm, ⟨50, _⟩ => ⟨S500000x1, .i32⟩
  | .hbm, ⟨51, _⟩ => ⟨S500000x1, .i1⟩
  | .hbm, ⟨52, _⟩ => ⟨S500000x1, .i1⟩
  | .hbm, ⟨53, _⟩ => ⟨S_, .i1⟩
  | .hbm, ⟨54, _⟩ => ⟨S500000, .i1⟩
  | .hbm, ⟨55, _⟩ => ⟨S500000x256, .f32⟩
  | .hbm, ⟨56, _⟩ => ⟨S500000x256, .i1⟩
  | .hbm, ⟨57, _⟩ => ⟨S_, .f32⟩
  | .hbm, ⟨58, _⟩ => ⟨S500000x256, .f32⟩
  | .hbm, ⟨59, _⟩ => ⟨S500000x256, .f32⟩
  | .hbm, ⟨60, _⟩ => ⟨S500000x1, .f32⟩
  | .hbm, ⟨61, _⟩ => ⟨S500000x1, .i32⟩
  | .hbm, ⟨62, _⟩ => ⟨S1x342, .f32⟩
  | .hbm, ⟨63, _⟩ => ⟨S1x171, .f32⟩
  | .hbm, ⟨64, _⟩ => ⟨S1x1, .f32⟩
  | .hbm, ⟨65, _⟩ => ⟨S1x64, .f32⟩
  | .hbm, ⟨66, _⟩ => ⟨S64x1, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S2000x1, .i32⟩
  | .local _ .vmem, ⟨7, _⟩ => ⟨S2000x1, .i32⟩
  | .local _ .vmem, ⟨8, _⟩ => ⟨S513x342, .f32⟩
  | .local _ .vmem, ⟨9, _⟩ => ⟨S1x342, .f32⟩
  | .local _ .vmem, ⟨10, _⟩ => ⟨S342x171, .f32⟩
  | .local _ .vmem, ⟨11, _⟩ => ⟨S1x171, .f32⟩
  | .local _ .vmem, ⟨12, _⟩ => ⟨S171x1, .f32⟩
  | .local _ .vmem, ⟨13, _⟩ => ⟨S1x1, .f32⟩
  | .local _ .vmem, ⟨14, _⟩ => ⟨S1x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S513x342 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x342 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S342x171 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x171 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S171x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x256_0 : S500000.BroadcastsInDim S500000x256 (![0] : Fin 1 → Fin S500000x256.rank)
  bcast_S_S500000x256 : S_.BroadcastsInDim S500000x256 (![] : Fin 0 → Fin S500000x256.rank)
  shapeCasts_S500000_S500000x1 : S500000.ShapeCasts S500000x1
  shapeCasts_S342_S1x342 : S342.ShapeCasts S1x342
  shapeCasts_S171_S1x171 : S171.ShapeCasts S1x171
  shapeCasts_S1_S1x1 : S1.ShapeCasts S1x1
  inb_S1x64_S1x64_0_0 : ∀ a, (![0, 0] : Fin 2 → Nat) a + S1x64.size a ≤ S1x64.size a
  h_S1x64 : 0 < S1x64.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  concatenates_S2000x256_S2000x256_S2000x1_S2000x513_d1 : Shape.Concatenates [S2000x256, S2000x256, S2000x1] S2000x513 1
  inb_S513x342_S513x342_0_0 : ∀ a, (![0, 0] : Fin 2 → Nat) a + S513x342.size a ≤ S513x342.size a
  h_S513x342 : 0 < S513x342.numel
  inb_S1x342_S1x342_0_0 : ∀ a, (![0, 0] : Fin 2 → Nat) a + S1x342.size a ≤ S1x342.size a
  h_S1x342 : 0 < S1x342.numel
  shapeCasts_S1x342_S1x342 : S1x342.ShapeCasts S1x342
  broadcasts_S1x342_S2000x342 : S1x342.Broadcasts S2000x342
  inb_S342x171_S342x171_0_0 : ∀ a, (![0, 0] : Fin 2 → Nat) a + S342x171.size a ≤ S342x171.size a
  h_S342x171 : 0 < S342x171.numel
  inb_S1x171_S1x171_0_0 : ∀ a, (![0, 0] : Fin 2 → Nat) a + S1x171.size a ≤ S1x171.size a
  h_S1x171 : 0 < S1x171.numel
  shapeCasts_S1x171_S1x171 : S1x171.ShapeCasts S1x171
  broadcasts_S1x171_S2000x171 : S1x171.Broadcasts S2000x171
  inb_S171x1_S171x1_0_0 : ∀ a, (![0, 0] : Fin 2 → Nat) a + S171x1.size a ≤ S171x1.size a
  h_S171x1 : 0 < S171x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  iota_S1x64_d1_w32 : S1x64.Iotas .tc 32 [1]
  broadcasts_S2000x1_S2000x64 : S2000x1.Broadcasts S2000x64
  broadcasts_S1x64_S2000x64 : S1x64.Broadcasts S2000x64
  natLt_1_32 : 1 < 32
  reduces_S2000x64_S64 : S2000x64.Reduces [0] S64
  shapeCasts_S64_S1x64 : S64.ShapeCasts S1x64
  shapeCasts_S1x64_S1x64 : S1x64.ShapeCasts S1x64
  shapeCasts_S1x64_S64x1 : S1x64.ShapeCasts S64x1
  gather_S100000x256_S500000x1_S500000x256_1_0_n_n_0_1_1256_wf : GatherDims.WF S100000x256 S500000x1 S500000x256 [1] [0] [] [0] [] 1 ![1, 256]
  dot_S2000x513_S513x342_S2000x342_1_0_0_1_n_n_wf : DotDims.WF S2000x513 S513x342 S2000x342 [1] [0] [0] [1] [] []
  dot_S2000x342_S342x171_S2000x171_1_0_0_1_n_n_wf : DotDims.WF S2000x342 S342x171 S2000x171 [1] [0] [0] [1] [] []
  dot_S2000x171_S171x1_S2000x1_1_0_0_1_n_n_wf : DotDims.WF S2000x171 S171x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S500000x256.size a
  hwx0_0 : ∀ i : grid0.Coords, EltTy.bits .f32 = 32 ∨ (Rect.block (s := S500000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S500000x256.size a
  hwx0_1 : ∀ i : grid0.Coords, EltTy.bits .f32 = 32 ∨ (Rect.block (s := S500000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S500000x1.size a
  hwx0_2 : ∀ i : grid0.Coords, EltTy.bits .f32 = 32 ∨ (Rect.block (s := S500000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S500000x1.size a
  hwx0_3 : ∀ i : grid0.Coords, EltTy.bits .i32 = 32 ∨ (Rect.block (s := S500000x1) S2000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S513x342.size a ≤ S513x342.size a
  hwx0_4 : ∀ i : grid0.Coords, EltTy.bits .f32 = 32 ∨ (Rect.block (s := S513x342) S513x342.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x342.size a ≤ S1x342.size a
  hwx0_5 : ∀ i : grid0.Coords, EltTy.bits .f32 = 32 ∨ (Rect.block (s := S1x342) S1x342.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S342x171.size a ≤ S342x171.size a
  hwx0_6 : ∀ i : grid0.Coords, EltTy.bits .f32 = 32 ∨ (Rect.block (s := S342x171) S342x171.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x171.size a ≤ S1x171.size a
  hwx0_7 : ∀ i : grid0.Coords, EltTy.bits .f32 = 32 ∨ (Rect.block (s := S1x171) S1x171.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S171x1.size a ≤ S171x1.size a
  hwx0_8 : ∀ i : grid0.Coords, EltTy.bits .f32 = 32 ∨ (Rect.block (s := S171x1) S171x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S2000x513_S513x342_S2000x342_1_0_0_1_n_n : DotDims S2000x513 S513x342 S2000x342 where
  lhsContracting := [1]
  rhsContracting := [0]
  lhsNonContracting := [0]
  rhsNonContracting := [1]
  lhsBatch := []
  rhsBatch := []
  wf := dot_S2000x513_S513x342_S2000x342_1_0_0_1_n_n_wf
def dot_S2000x342_S342x171_S2000x171_1_0_0_1_n_n : DotDims S2000x342 S342x171 S2000x171 where
  lhsContracting := [1]
  rhsContracting := [0]
  lhsNonContracting := [0]
  rhsNonContracting := [1]
  lhsBatch := []
  rhsBatch := []
  wf := dot_S2000x342_S342x171_S2000x171_1_0_0_1_n_n_wf
def dot_S2000x171_S171x1_S2000x1_1_0_0_1_n_n : DotDims S2000x171 S171x1 S2000x1 where
  lhsContracting := [1]
  rhsContracting := [0]
  lhsNonContracting := [0]
  rhsNonContracting := [1]
  lhsBatch := []
  rhsBatch := []
  wf := dot_S2000x171_S171x1_S2000x1_1_0_0_1_n_n_wf

abbrev win0_0 : Pipeline.Window sig grid0 :=
  Pipeline.Window.ofSpec (Memref.whole main_v4) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S513x342.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x342.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S342x171.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x171.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S171x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x64.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x500000 : Shape := ⟨2, ![2, 500000]⟩
abbrev S500000 : Shape := ⟨1, ![500000]⟩
abbrev S513x342 : Shape := ⟨2, ![513, 342]⟩
abbrev S342 : Shape := ⟨1, ![342]⟩
abbrev S342x171 : Shape := ⟨2, ![342, 171]⟩
abbrev S171 : Shape := ⟨1, ![171]⟩
abbrev S171x1 : Shape := ⟨2, ![171, 1]⟩
abbrev S1 : Shape := ⟨1, ![1]⟩
abbrev S1x500000 : Shape := ⟨2, ![1, 500000]⟩
abbrev S_ : Shape := ⟨0, ![]⟩
abbrev S500000x1 : Shape := ⟨2, ![500000, 1]⟩
abbrev S500000x256 : Shape := ⟨2, ![500000, 256]⟩
abbrev S500000x513 : Shape := ⟨2, ![500000, 513]⟩
abbrev S500000x342 : Shape := ⟨2, ![500000, 342]⟩
abbrev S1x342 : Shape := ⟨2, ![1, 342]⟩
abbrev S500000x171 : Shape := ⟨2, ![500000, 171]⟩
abbrev S1x171 : Shape := ⟨2, ![1, 171]⟩
abbrev S1x1 : Shape := ⟨2, ![1, 1]⟩
abbrev S64x1 : Shape := ⟨2, ![64, 1]⟩

abbrev nBuf : Space → Nat
  | .hbm => 56
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x500000, .i32⟩
  | .hbm, ⟨2, _⟩ => ⟨S500000, .f32⟩
  | .hbm, ⟨3, _⟩ => ⟨S500000, .i32⟩
  | .hbm, ⟨4, _⟩ => ⟨S513x342, .f32⟩
  | .hbm, ⟨5, _⟩ => ⟨S342, .f32⟩
  | .hbm, ⟨6, _⟩ => ⟨S342x171, .f32⟩
  | .hbm, ⟨7, _⟩ => ⟨S171, .f32⟩
  | .hbm, ⟨8, _⟩ => ⟨S171x1, .f32⟩
  | .hbm, ⟨9, _⟩ => ⟨S1, .f32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x256, .f32⟩
  | .hbm, ⟨21, _⟩ => ⟨S1x500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x256, .f32⟩
  | .hbm, ⟨32, _⟩ => ⟨S500000x1, .f32⟩
  | .hbm, ⟨33, _⟩ => ⟨S500000x513, .f32⟩
  | .hbm, ⟨34, _⟩ => ⟨S500000x342, .f32⟩
  | .hbm, ⟨35, _⟩ => ⟨S1x342, .f32⟩
  | .hbm, ⟨36, _⟩ => ⟨S500000x342, .f32⟩
  | .hbm, ⟨37, _⟩ => ⟨S500000x342, .f32⟩
  | .hbm, ⟨38, _⟩ => ⟨S_, .f32⟩
  | .hbm, ⟨39, _⟩ => ⟨S500000x342, .f32⟩
  | .hbm, ⟨40, _⟩ => ⟨S500000x342, .f32⟩
  | .hbm, ⟨41, _⟩ => ⟨S500000x171, .f32⟩
  | .hbm, ⟨42, _⟩ => ⟨S1x171, .f32⟩
  | .hbm, ⟨43, _⟩ => ⟨S500000x171, .f32⟩
  | .hbm, ⟨44, _⟩ => ⟨S500000x171, .f32⟩
  | .hbm, ⟨45, _⟩ => ⟨S_, .f32⟩
  | .hbm, ⟨46, _⟩ => ⟨S500000x171, .f32⟩
  | .hbm, ⟨47, _⟩ => ⟨S500000x171, .f32⟩
  | .hbm, ⟨48, _⟩ => ⟨S500000x1, .f32⟩
  | .hbm, ⟨49, _⟩ => ⟨S1x1, .f32⟩
  | .hbm, ⟨50, _⟩ => ⟨S500000x1, .f32⟩
  | .hbm, ⟨51, _⟩ => ⟨S500000x1, .f32⟩
  | .hbm, ⟨52, _⟩ => ⟨S_, .f32⟩
  | .hbm, ⟨53, _⟩ => ⟨S64x1, .f32⟩
  | .hbm, ⟨54, _⟩ => ⟨S500000x1, .i32⟩
  | .hbm, ⟨55, _⟩ => ⟨S64x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x256_S500000x256_S500000x1_S500000x513_d1 : Shape.Concatenates [S500000x256, S500000x256, S500000x1] S500000x513 1
  bcast_S342_S1x342_1 : S342.BroadcastsInDim S1x342 (![1] : Fin 1 → Fin S1x342.rank)
  bcast_S1x342_S500000x342_0_1 : S1x342.BroadcastsInDim S500000x342 (![0, 1] : Fin 2 → Fin S500000x342.rank)
  bcast_S_S500000x342 : S_.BroadcastsInDim S500000x342 (![] : Fin 0 → Fin S500000x342.rank)
  bcast_S171_S1x171_1 : S171.BroadcastsInDim S1x171 (![1] : Fin 1 → Fin S1x171.rank)
  bcast_S1x171_S500000x171_0_1 : S1x171.BroadcastsInDim S500000x171 (![0, 1] : Fin 2 → Fin S500000x171.rank)
  bcast_S_S500000x171 : S_.BroadcastsInDim S500000x171 (![] : Fin 0 → Fin S500000x171.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S64x1 : S_.BroadcastsInDim S64x1 (![] : Fin 0 → Fin S64x1.rank)
  gather_S100000x256_S500000x1_S500000x256_1_0_n_n_0_1_1256_wf : GatherDims.WF S100000x256 S500000x1 S500000x256 [1] [0] [] [0] [] 1 ![1, 256]
  dot_S500000x513_S513x342_S500000x342_1_0_0_1_n_n_wf : DotDims.WF S500000x513 S513x342 S500000x342 [1] [0] [0] [1] [] []
  dot_S500000x342_S342x171_S500000x171_1_0_0_1_n_n_wf : DotDims.WF S500000x342 S342x171 S500000x171 [1] [0] [0] [1] [] []
  dot_S500000x171_S171x1_S500000x1_1_0_0_1_n_n_wf : DotDims.WF S500000x171 S171x1 S500000x1 [1] [0] [0] [1] [] []
  scatter_S64x1_S500000x1_S500000x1_1_0_0_1_wf : ScatterDims.WF S64x1 S500000x1 S500000x1 [1] [0] [0] 1

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x513_S513x342_S500000x342_1_0_0_1_n_n : DotDims S500000x513 S513x342 S500000x342 where
  lhsContracting := [1]
  rhsContracting := [0]
  lhsNonContracting := [0]
  rhsNonContracting := [1]
  lhsBatch := []
  rhsBatch := []
  wf := dot_S500000x513_S513x342_S500000x342_1_0_0_1_n_n_wf
def dot_S500000x342_S342x171_S500000x171_1_0_0_1_n_n : DotDims S500000x342 S342x171 S500000x171 where
  lhsContracting := [1]
  rhsContracting := [0]
  lhsNonContracting := [0]
  rhsNonContracting := [1]
  lhsBatch := []
  rhsBatch := []
  wf := dot_S500000x342_S342x171_S500000x171_1_0_0_1_n_n_wf
def dot_S500000x171_S171x1_S500000x1_1_0_0_1_n_n : DotDims S500000x171 S171x1 S500000x1 where
  lhsContracting := [1]
  rhsContracting := [0]
  lhsNonContracting := [0]
  rhsNonContracting := [1]
  lhsBatch := []
  rhsBatch := []
  wf := dot_S500000x171_S171x1_S500000x1_1_0_0_1_n_n_wf
def scatter_S64x1_S500000x1_S500000x1_1_0_0_1 : ScatterDims S64x1 S500000x1 S500000x1 where
  updateWindowDims := [1]
  insertedWindowDims := [0]
  scatterDimsToOperandDims := [0]
  indexVectorDim := 1
  wf := scatter_S64x1_S500000x1_S500000x1_1_0_0_1_wf

class Facts : Prop extends Facts₀ where

variable [Facts]
-- ==== Proof.KPieces.lean ====
/-
  What one run of the kernel body leaves in the output's staging buffer, as a value.

  The body reads its ten input blocks whole, and stores the [1,64] output buffer whole. At the first grid point it
  first stores the zero row, reads it back, and stores `0 + contribution`; at every later point it reads what the
  point before left and stores `previous + contribution`. In both cases what the buffer ends holding is the last
  store's payload — `k0_pay1`, the body's arithmetic as one term of the loaded blocks — with the accumulator it read:
  the zero row `k0_pay2` at the first point, the buffer's previous contents afterwards.
-/
import proofs.«410209_j74431783239747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- Every block is read and written from its origin. -/
theorem hz : (![0, 0] : Fin 2 → Nat) = fun _ => 0 := funext fun a => by fin_cases a <;> rfl

/-- A later grid point: the buffer held `xo`; the one covering store leaves the payload over `xo`. -/
theorem out_B (c : Dev nD) (i : grid0.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S2000x1 .i32) (h4 : a4.IsWhole) (a5 : Memref sig .tc .vmem S513x342 .f32) (h5 : a5.IsWhole) (a6 : Memref sig .tc .vmem S1x342 .f32) (h6 : a6.IsWhole) (a7 : Memref sig .tc .vmem S342x171 .f32) (h7 : a7.IsWhole) (a8 : Memref sig .tc .vmem S1x171 .f32) (h8 : a8.IsWhole) (a9 : Memref sig .tc .vmem S171x1 .f32) (h9 : a9.IsWhole) (a10 : Memref sig .tc .vmem S1x1 .f32) (h10 : a10.IsWhole) (a11 : Memref sig .tc .vmem S1x64 .f32) (h11 : a11.IsWhole) (hc : ¬cond0_0 i) (x0 x1 : Vec F S2000x256 .f32) (x2 : Vec F S2000x1 .f32) (x3 : Vec F S2000x1 .i32) (x4 : Vec F S513x342 .f32) (x5 : Vec F S1x342 .f32) (x6 : Vec F S342x171 .f32) (x7 : Vec F S1x171 .f32) (x8 : Vec F S171x1 .f32) (x9 : Vec F S1x1 .f32) (xo : Vec F S1x64 .f32) :
    out0_B_10 c i a1 h1 a2 h2 a3 h3 a4 h4 a5 h5 a6 h6 a7 h7 a8 h8 a9 h9 a10 h10 a11 h11 hc x0 x1 x2 x3 x4 x5 x6 x7 x8 x9 xo
      = k0_pay1 (k0_pay3 x0 x1 x2 x4 x5 x6 x7) (k0_pay4 x8) x9 x3 xo := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 x8 x9 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S2000x256) hz, View.ld_unit_zero (S := S2000x1) hz, View.ld_unit_zero (S := S513x342) hz, View.ld_unit_zero (S := S1x342) hz, View.ld_unit_zero (S := S342x171) hz, View.ld_unit_zero (S := S1x171) hz, View.ld_unit_zero (S := S171x1) hz, View.ld_unit_zero (S := S1x1) hz, View.ld_unit_zero (S := S1x64) hz]

/-- The first grid point: the zero row is stored, read back, and the payload over it stored on top. -/
theorem out_A (c : Dev nD) (i : grid0.Coords) (a1 : Memref sig .tc .vmem S2000x256 .f32) (h1 : a1.IsWhole) (a2 : Memref sig .tc .vmem S2000x256 .f32) (h2 : a2.IsWhole) (a3 : Memref sig .tc .vmem S2000x1 .f32) (h3 : a3.IsWhole) (a4 : Memref sig .tc .vmem S2000x1 .i32) (h4 : a4.IsWhole) (a5 : Memref sig .tc .vmem S513x342 .f32) (h5 : a5.IsWhole) (a6 : Memref sig .tc .vmem S1x342 .f32) (h6 : a6.IsWhole) (a7 : Memref sig .tc .vmem S342x171 .f32) (h7 : a7.IsWhole) (a8 : Memref sig .tc .vmem S1x171 .f32) (h8 : a8.IsWhole) (a9 : Memref sig .tc .vmem S171x1 .f32) (h9 : a9.IsWhole) (a10 : Memref sig .tc .vmem S1x1 .f32) (h10 : a10.IsWhole) (a11 : Memref sig .tc .vmem S1x64 .f32) (h11 : a11.IsWhole) (hc : cond0_0 i) (x0 x1 : Vec F S2000x256 .f32) (x2 : Vec F S2000x1 .f32) (x3 : Vec F S2000x1 .i32) (x4 : Vec F S513x342 .f32) (x5 : Vec F S1x342 .f32) (x6 : Vec F S342x171 .f32) (x7 : Vec F S1x171 .f32) (x8 : Vec F S171x1 .f32) (x9 : Vec F S1x1 .f32) :
    out0_A_10 c i a1 h1 a2 h2 a3 h3 a4 h4 a5 h5 a6 h6 a7 h7 a8 h8 a9 h9 a10 h10 a11 h11 hc x0 x1 x2 x3 x4 x5 x6 x7 x8 x9
      = k0_pay1 (k0_pay3 x0 x1 x2 x4 x5 x6 x7) (k0_pay4 x8) x9 x3 (k0_pay2 (F := F)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7 x8 x9)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, h8.read_unread, h9.read_unread, h10.read_unread, h11.read_unread, View.ld_unit_zero (S := S2000x256) hz, View.ld_unit_zero (S := S2000x1) hz, View.ld_unit_zero (S := S513x342) hz, View.ld_unit_zero (S := S1x342) hz, View.ld_unit_zero (S := S342x171) hz, View.ld_unit_zero (S := S1x171) hz, View.ld_unit_zero (S := S171x1) hz, View.ld_unit_zero (S := S1x1) hz, View.ld_unit_zero (S := S1x64) hz]

end Cert.KernelIdeal.KValue

end
-- ==== Proof.LibScatterGather.lean ====
/-
  The host's gather and accumulating scatter, read at one index, for the shapes this program uses: a table of `n` rows
  (scalars, or rows of `h` numbers) addressed through an [m × 1] column of 32-bit start indices.

  A SCATTER reads the start index signed and does not clamp it: update `e` is added to row `landing n (idx e)`, which is
  nowhere when the index is negative or at least `n` (the update is dropped). So the result at row `k` is the operand
  there plus the sum of the updates whose index lands on `k`; for rows of `h` numbers, feature by feature.
  A GATHER reads the start index signed and clamps it into the table: result row `e` is the table's row
  `rowOf n (idx e)`.
  Two facts tie them together: an index that lands on `k` is the word of `k` (so comparing an index with the word of a
  row number decides landing), and an index that lands on `k` is not negative, so the wrap-around of negative indices
  (`index + n` when negative) leaves it alone and the clamped read of it is row `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

/-- Where a start index (a 32-bit word read signed) lands among `n` rows: nowhere when negative or at least `n`. -/
def landing (n : Nat) (w : BitVec 32) : Option (Fin n) :=
  if h : 0 ≤ w.toInt ∧ w.toInt < n then some ⟨w.toInt.toNat, by omega⟩ else none

/-- The row a gather reads for a start index: the index read signed and clamped into the table. -/
def rowOf (n : Nat) (hn : 0 < n) (w : BitVec 32) : Fin n := ⟨min w.toInt.toNat (n - 1), by omega⟩

/-! ## The accumulating scatter of scalars: where update `j` lands -/

section ScatterScalar

variable {n m : Nat} (d : ScatterDims ⟨1, ![n]⟩ ⟨2, ![m, 1]⟩ ⟨1, ![m]⟩)

/-- Update `j` reads its start index at row `j 0` of the index column: the one update axis is the scatter axis, and the
    index vector has the single component 0. -/
theorem siIdx_scalar (hsd : d.scatterDimsToOperandDims = [0]) (hiv : d.indexVectorDim = 1)
    (j : (⟨1, ![m]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show c.val = 0
    have := c.isLt
    omega

/-- The window of update `j` starts at its index, read signed. -/
theorem start_scalar (hsd : d.scatterDimsToOperandDims = [0]) (hiv : d.indexVectorDim = 1)
    (idx : IVec ⟨2, ![m, 1]⟩ 32) (j : (⟨1, ![m]⟩ : Shape).Idx) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha, siIdx_scalar d hsd hiv]
  rfl

/-- The operand's one axis is inserted: an update has no window coordinate on it. -/
theorem window_scalar (hiw : d.insertedWindowDims = [0]) (j : (⟨1, ![m]⟩ : Shape).Idx) (a : Fin 1) : d.window j a = 0 := by
  have ha : a ∉ d.sKept := by
    rw [Subsingleton.elim a 0]
    simp [ScatterDims.sKept, Shape.kept, hiw]
  unfold ScatterDims.window
  rw [dif_neg ha]

/-- Update `j` lands on the row its index lands on. -/
theorem resultIdx_scalar (hiw : d.insertedWindowDims = [0]) (hsd : d.scatterDimsToOperandDims = [0]) (hiv : d.indexVectorDim = 1)
    (idx : IVec ⟨2, ![m, 1]⟩ 32) (j : (⟨1, ![m]⟩ : Shape).Idx) :
    d.resultIdx? j idx = (landing n (idx (ix2 (j 0) 0))).map ix1 := by
  have hsw : ∀ a : Fin 1, d.start j idx a + (d.window j a : Int) = (idx (ix2 (j 0) 0)).toInt := fun a => by
    rw [start_scalar d hsd hiv, window_scalar d hiw]; simp
  unfold ScatterDims.resultIdx? landing
  by_cases hw : 0 ≤ (idx (ix2 (j 0) 0)).toInt ∧ (idx (ix2 (j 0) 0)).toInt < n
  · rw [dif_pos (fun a => by rw [hsw a, Subsingleton.elim a 0]; exact hw), dif_pos hw]
    simp only [Option.map_some]
    congr 1
    funext a
    have ha : a = 0 := Subsingleton.elim _ _
    subst ha
    apply Fin.ext
    show (d.start j idx 0 + (d.window j 0 : Int)).toNat = (idx (ix2 (j 0) 0)).toInt.toNat
    rw [hsw 0]
  · rw [dif_neg (fun hall => hw (by have h0 := hall 0; rw [hsw 0] at h0; exact h0)), dif_neg hw]
    rfl

end ScatterScalar

/-! ## The accumulating scatter of rows: where update `j` lands -/

section ScatterRows

variable {n m h : Nat} (d : ScatterDims ⟨2, ![n, h]⟩ ⟨2, ![m, 1]⟩ ⟨2, ![m, h]⟩)

/-- Of the update's two axes, axis 1 is the window axis, so axis 0 is the only scatter axis. -/
theorem uScatter_rows (huw : d.updateWindowDims = [1]) (X : Fin 2) (hX : X ∈ d.uScatter) : X = 0 := by
  have hne : X ≠ 1 := by simpa [ScatterDims.uScatter, Shape.kept, huw] using hX
  have hlt : X.val < 2 := X.isLt
  have hv : X.val ≠ 1 := fun hv => hne (Fin.ext hv)
  apply Fin.ext
  show X.val = 0
  omega

/-- Update `j` reads its start index at row `j 0` of the index column. -/
theorem siIdx_rows (huw : d.updateWindowDims = [1]) (hsd : d.scatterDimsToOperandDims = [0]) (hiv : d.indexVectorDim = 1)
    (j : (⟨2, ![m, h]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 2, X ∈ d.uScatter → (j X).val = (j 0).val := fun X hX => by rw [uScatter_rows d huw X hX]
    exact e _ (List.getElem_mem _)
  | ⟨1, _⟩ =>
    unfold ScatterDims.siIdx
    rw [dif_pos (by rw [hiv])]
    apply Fin.ext
    show c.val = 0
    have := c.isLt
    omega

/-- On the table's row axis the window of update `j` starts at its index, read signed. -/
theorem start_rows0 (huw : d.updateWindowDims = [1]) (hsd : d.scatterDimsToOperandDims = [0]) (hiv : d.indexVectorDim = 1)
    (idx : IVec ⟨2, ![m, 1]⟩ 32) (j : (⟨2, ![m, h]⟩ : Shape).Idx) :
    d.start j idx 0 = (idx (ix2 (j 0) 0)).toInt := by
  have ha : (0 : Fin 2) ∈ d.scatterDimsToOperandDims := by rw [hsd]; exact List.mem_singleton.mpr rfl
  unfold ScatterDims.start
  rw [dif_pos ha, siIdx_rows d huw hsd hiv]
  rfl

/-- The feature axis is not start-indexed: the window starts at 0 there. -/
theorem start_rows1 (hsd : d.scatterDimsToOperandDims = [0]) (idx : IVec ⟨2, ![m, 1]⟩ 32) (j : (⟨2, ![m, h]⟩ : Shape).Idx) :
    d.start j idx 1 = 0 := by
  have ha : (1 : Fin 2) ∉ d.scatterDimsToOperandDims := by rw [hsd]; simp
  unfold ScatterDims.start
  rw [dif_neg ha]

/-- The row axis is inserted: no window coordinate on it. -/
theorem window_rows0 (hiw : d.insertedWindowDims = [0]) (j : (⟨2, ![m, h]⟩ : Shape).Idx) : d.window j 0 = 0 := by
  have ha : (0 : Fin 2) ∉ d.sKept := by simp [ScatterDims.sKept, Shape.kept, hiw]
  unfold ScatterDims.window
  rw [dif_neg ha]

/-- The feature axis takes the update's window coordinate, its coordinate on axis 1. -/
theorem window_rows1 (huw : d.updateWindowDims = [1]) (hiw : d.insertedWindowDims = [0]) (j : (⟨2, ![m, h]⟩ : Shape).Idx) :
    d.window j 1 = (j 1).val := by
  have ha : (1 : Fin 2) ∈ d.sKept := by simp [ScatterDims.sKept, Shape.kept, hiw]
  unfold ScatterDims.window
  rw [dif_pos ha]
  have e : ∀ X : Fin 2, X ∈ d.updateWindowDims → (j X).val = (j 1).val := fun X hX => by
    rw [huw] at hX; rw [List.mem_singleton.1 hX]
  exact e _ (List.getElem_mem _)

/-- Update `j` lands on the row its index lands on, at its own feature. -/
theorem resultIdx_rows (huw : d.updateWindowDims = [1]) (hiw : d.insertedWindowDims = [0]) (hsd : d.scatterDimsToOperandDims = [0])
    (hiv : d.indexVectorDim = 1) (idx : IVec ⟨2, ![m, 1]⟩ 32) (j : (⟨2, ![m, h]⟩ : Shape).Idx) :
    d.resultIdx? j idx
      = (landing n (idx (ix2 (j 0) 0))).map (fun r => (ix2 r (j 1) : (⟨2, ![n, h]⟩ : Shape).Idx)) := by
  have h0 : d.start j idx 0 + (d.window j 0 : Int) = (idx (ix2 (j 0) 0)).toInt := by
    rw [start_rows0 d huw hsd hiv, window_rows0 d hiw]; simp
  have h1 : d.start j idx 1 + (d.window j 1 : Int) = ((j 1).val : Int) := by
    rw [start_rows1 d hsd, window_rows1 d huw hiw]; simp
  have hj1 : ((j 1).val : Int) < (h : Int) := by exact_mod_cast (j 1).isLt
  unfold ScatterDims.resultIdx? landing
  by_cases hw : 0 ≤ (idx (ix2 (j 0) 0)).toInt ∧ (idx (ix2 (j 0) 0)).toInt < n
  · have hall : ∀ a : Fin 2, 0 ≤ d.start j idx a + (d.window j a : Int) ∧
        d.start j idx a + (d.window j a : Int) < ((⟨2, ![n, h]⟩ : Shape).size a : Int) :=
      Fin.forall_fin_two.2 ⟨by rw [h0]; exact hw, by rw [h1]; exact ⟨by omega, hj1⟩⟩
    rw [dif_pos hall, dif_pos hw]
    simp only [Option.map_some]
    congr 1
    funext a
    revert a
    refine Fin.forall_fin_two.2 ⟨?_, ?_⟩
    · apply Fin.ext
      show (d.start j idx 0 + (d.window j 0 : Int)).toNat = (idx (ix2 (j 0) 0)).toInt.toNat
      rw [h0]
    · apply Fin.ext
      show (d.start j idx 1 + (d.window j 1 : Int)).toNat = (j 1).val
      rw [h1]; simp
  · rw [dif_neg (fun hall => hw (by have a0 := hall 0; rw [h0] at a0; exact a0)), dif_neg hw]
    rfl

end ScatterRows

/-- Two rank-2 indices that are equal have equal coordinates. -/
theorem ix2_inj {n0 n1 : Nat} {a a' : Fin n0} {b b' : Fin n1} (h : ix2 a b = ix2 a' b') : a = a' ∧ b = b' :=
  ⟨congrFun h 0, congrFun h 1⟩

/-- Two rank-1 indices with the same coordinate are the same index. -/
theorem ix1_inj {n : Nat} {a b : Fin n} (h : ix1 a = ix1 b) : a = b := congrFun h 0

/-- The accumulating scatter of scalars at row `k`. -/
theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    rw [resultIdx_scalar d hiw hsd hiv, Option.map_eq_some_iff]
    constructor
    · rintro ⟨a, ha, hak⟩; rw [ha, ix1_inj hak]
    · intro hl; exact ⟨k, hl, rfl⟩
  show x (ix1 k) + ∑ j ∈ Finset.univ.filter (fun j => d.resultIdx? j idx = some (ix1 k)), upd j = _
  congr 1
  -- an update index is its one coordinate: the updates that land on row k are those whose index lands there
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

/-- The accumulating scatter of rows at row `k`, feature `j`. -/
theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hmem : ∀ q : (⟨2, ![m, h]⟩ : Shape).Idx,
      d.resultIdx? q idx = some (ix2 k j) ↔ landing n (idx (ix2 (q 0) 0)) = some k ∧ q 1 = j := fun q => by
    rw [resultIdx_rows d huw hiw hsd hiv]
    cases hl : landing n (idx (ix2 (q 0) 0)) with
    | none => simp
    | some r =>
      simp only [Option.map_some, Option.some.injEq]
      constructor
      · intro hak; exact ix2_inj hak
      · rintro ⟨hr, hq⟩; rw [hr, hq]
  show x (ix2 k j) + ∑ q ∈ Finset.univ.filter (fun q => d.resultIdx? q idx = some (ix2 k j)), upd q = _
  congr 1
  -- an update index is (its row, its feature): the updates that land on (k, j) are feature j of the rows whose index lands on k
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · have hq1 := ((hmem q).1 (Finset.mem_filter.1 hq).2).2
    show ix2 (q 0) j = q
    rw [← hq1]; exact (eq_ix2 q).symm
  · have hq1 := ((hmem q).1 (Finset.mem_filter.1 hq).2).2
    show upd q = upd (ix2 (q 0) j)
    rw [← hq1]; exact congrArg upd (eq_ix2 q)

/-! ## The gather of rows: which table entry result index `q` reads -/

section GatherRows

variable {N n h : Nat} (d : GatherDims ⟨2, ![N, h]⟩ ⟨2, ![n, 1]⟩ ⟨2, ![n, h]⟩)

/-- Of the result's two axes, axis 1 is the offset axis, so axis 0 is the only batch axis. -/
theorem batchDims_rows (hoff : d.offsetDims = [1]) (X : Fin 2) (hX : X ∈ d.batchDims) : X = 0 := by
  have hne : X ≠ 1 := by simpa [GatherDims.batchDims, Shape.kept, hoff] using hX
  have hlt : X.val < 2 := X.isLt
  have hv : X.val ≠ 1 := fun hv => hne (Fin.ext hv)
  apply Fin.ext
  show X.val = 0
  omega

/-- Result index `q` reads its start index at row `q 0` of the index column. -/
theorem gatherSiIdx_rows (hoff : d.offsetDims = [1]) (hsim : d.startIndexMap = [0]) (hivd : d.indexVectorDim = 1)
    (q : (⟨2, ![n, h]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 0).val := fun X hX => by rw [batchDims_rows d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own feature): the row axis is
    collapsed and start-indexed with a slice of one row, the feature axis is the offset axis and starts at 0. -/
theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hsim hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

/-- The gather of scalars at result row `e`. -/
theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  -- the take-shaped gather read at one position, its rank-1 index and its index-column row written by coordinates
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

/-- The gather of rows at result row `e`, feature `j`. -/
theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

/-- An index lands on row `k` exactly when it is the word of `k`. -/
theorem landing_eq_some_iff {n : Nat} (hn : n ≤ 2 ^ 31) (w : BitVec 32) (k : Fin n) :
    landing n w = some k ↔ w = BitVec.ofNat 32 k.val := by
  have hk := k.isLt
  have hwlt := w.isLt
  unfold landing
  constructor
  · intro h
    split at h
    · rename_i hw
      -- the landing row's number is the index read signed; a word below 2^31 reads the same signed and unsigned
      have hv : w.toInt.toNat = k.val := congrArg Fin.val (Option.some.inj h)
      have hc := BitVec.toInt_eq_toNat_cond w
      apply BitVec.eq_of_toNat_eq
      rw [BitVec.toNat_ofNat, Nat.mod_eq_of_lt (by omega)]
      split at hc <;> omega
    · exact absurd h (by simp)
  · intro h
    subst h
    have htn : (BitVec.ofNat 32 k.val).toNat = k.val := by
      rw [BitVec.toNat_ofNat]; exact Nat.mod_eq_of_lt (by omega)
    have hti : (BitVec.ofNat 32 k.val).toInt = (k.val : Int) := by
      rw [BitVec.toInt_eq_toNat_cond, htn, if_pos (by omega)]
    rw [dif_pos ⟨by omega, by omega⟩]
    congr 1
    apply Fin.ext
    show (BitVec.ofNat 32 k.val).toInt.toNat = k.val
    omega

/-- An index that lands on row `k` is not negative: wrapping negative indices around leaves it alone, and the clamped
    read of it is row `k`. -/
theorem rowOf_wrap_of_landing {n : Nat} (hn : 0 < n) (hn' : n < 2 ^ 31) (w : BitVec 32) (k : Fin n) (h : landing n w = some k) :
    rowOf n hn (Scalar.select (Scalar.cmpi .slt w 0#32) (w + BitVec.ofNat 32 n) w) = k := by
  unfold landing at h
  split at h
  · rename_i hw
    have hk : w.toInt.toNat = k.val := congrArg Fin.val (Option.some.inj h)
    -- a landing index is not below zero, so the signed comparison with zero fails and the select keeps the index
    have hs : w.slt 0#32 = false := by
      simp only [BitVec.slt, BitVec.toInt_zero, decide_eq_false_iff_not, not_lt]
      exact hw.1
    have hc : Scalar.cmpi .slt w 0#32 = 0#1 := by
      show BitVec.ofBool (w.slt 0#32) = 0#1
      rw [hs]; rfl
    rw [hc, select_zero]
    apply Fin.ext
    show min w.toInt.toNat (n - 1) = k.val
    omega
  · exact absurd h (by simp)

end Cert.Decode

end
-- ==== Proof.EdgeSpec.lean ====
/-
  The mathematics both programs compute, stated once over plain index types, on the extended reals.

  An edge `e` has 513 features: the 256 features of its source node, the 256 of its destination node, and its own
  attribute. A three-layer perceptron maps them to one number,
    `score h = Σ k, relu (Σ j, relu (Σ i, h i * W1 i j + b1 j) * W2 j k + b2 k) * W3 k + b3`,
  with `relu x = max x 0`, and graph `g`'s result is the sum of the scores of the edges whose graph id is `g`.

  A node index is read as both programs read it: a negative index counts from the end of the table (`wrap`), and the
  table row is that index read signed and clamped into the table (`nodeRow`).

  The sum over all 500000 edges is also the sum, over 250 tiles of 2000 consecutive edges, of the sums inside each
  tile (`sum_tiles`): the order in which a finite sum of extended reals is taken does not matter.
-/
import Idealize.ShloMosaic.PureOps.Ideal
import Idealize.ShloMosaic.Lib.ValueIdx
import proofs.«410209_j74431783239747_1_alg».proof.Proof.LibScatterGather

noncomputable section

namespace Cert.EdgeSpec

open Idealize.ShloMosaic

/-- Unit `j` of the first hidden layer. -/
def hidden1 (W1 : Fin 513 → Fin 342 → EReal) (b1 : Fin 342 → EReal) (h : Fin 513 → EReal) (j : Fin 342) : EReal :=
  max ((∑ i : Fin 513, h i * W1 i j) + b1 j) 0

/-- Unit `k` of the second hidden layer. -/
def hidden2 (W2 : Fin 342 → Fin 171 → EReal) (b2 : Fin 171 → EReal) (a : Fin 342 → EReal) (k : Fin 171) : EReal :=
  max ((∑ j : Fin 342, a j * W2 j k) + b2 k) 0

/-- The perceptron's output for one feature row. -/
def score (W1 : Fin 513 → Fin 342 → EReal) (b1 : Fin 342 → EReal) (W2 : Fin 342 → Fin 171 → EReal) (b2 : Fin 171 → EReal)
    (W3 : Fin 171 → EReal) (b3 : EReal) (h : Fin 513 → EReal) : EReal :=
  (∑ k : Fin 171, hidden2 W2 b2 (hidden1 W1 b1 h) k * W3 k) + b3

/-- An edge's 513 features: its source row, its destination row, its attribute. -/
def feat (a b : Fin 256 → EReal) (c : EReal) (i : Fin 513) : EReal :=
  if h : i.val < 256 then a ⟨i.val, h⟩ else if h' : i.val < 512 then b ⟨i.val - 256, by omega⟩ else c

/-- A node index as both programs read it: a negative index counts from the end of the 100000-row table. -/
def wrap (w : BitVec 32) : BitVec 32 := Scalar.select (Scalar.cmpi .slt w 0#32) (w + BitVec.ofNat 32 100000) w

/-- The table row a node index reads: wrapped, read signed, clamped into the table. -/
def nodeRow (w : BitVec 32) : Fin 100000 := Cert.Decode.rowOf 100000 (by decide) (wrap w)

/-- The score of edge `e`, from the argument arrays. -/
def edgeScore (x : Fin 100000 → Fin 256 → EReal) (src dst : Fin 500000 → BitVec 32) (ea : Fin 500000 → EReal)
    (W1 : Fin 513 → Fin 342 → EReal) (b1 : Fin 342 → EReal) (W2 : Fin 342 → Fin 171 → EReal) (b2 : Fin 171 → EReal)
    (W3 : Fin 171 → EReal) (b3 : EReal) (e : Fin 500000) : EReal :=
  score W1 b1 W2 b2 W3 b3 (feat (x (nodeRow (src e))) (x (nodeRow (dst e))) (ea e))

/-- Graph `g`'s pooled result: the scores of the edges whose graph id is the word of `g`. -/
def pooled (batch : Fin 500000 → BitVec 32) (s : Fin 500000 → EReal) (g : Fin 64) : EReal :=
  ∑ e : Fin 500000, if batch e = BitVec.ofNat 32 g.val then s e else 0

/-- Edge `r` of tile `t`. -/
def tileEdge (t : Fin 250) (r : Fin 2000) : Fin 500000 := ⟨2000 * t.val + r.val, by have := t.isLt; have := r.isLt; omega⟩

/-- A sum over all edges, tile by tile. -/
theorem sum_tiles (f : Fin 500000 → EReal) : ∑ e : Fin 500000, f e = ∑ t : Fin 250, ∑ r : Fin 2000, f (tileEdge t r) := by
  rw [← Fintype.sum_prod_type' (f := fun t r => f (tileEdge t r))]
  refine (Fintype.sum_equiv (finProdFinEquiv (m := 250) (n := 2000)) (fun p => f (tileEdge p.1 p.2)) f (fun p => ?_)).symm
  congr 1
  apply Fin.ext
  show 2000 * p.1.val + p.2.val = p.2.val + 2000 * p.1.val
  omega

end Cert.EdgeSpec

end
-- ==== Proof.KBlocks.lean ====
/-
  A window's block at a grid point, read at an entry, is its array's entry.

  The four per-edge inputs (the two gathered node-feature arrays, the edge attributes, the graph ids) are cut into 250
  tiles of 2000 consecutive rows: row `r` of the block at point `t` is row `2000 t + r` of the array. The six
  parameter arrays (three weight matrices, three bias rows) are one block each: the block at every point is the array.
-/
import proofs.«410209_j74431783239747_1_alg».proof.Proof.KPieces
import proofs.«410209_j74431783239747_1_alg».proof.Proof.EdgeSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- Point `t` as a tile number. -/
def tile (t : Fin cfg0.N) : Fin 250 := ⟨t.val, lt_of_lt_of_eq t.isLt N_0⟩

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `r` of window 0's block at point `t` is row `2000 t + r` of its array. -/
theorem blk0_apply (c : Dev nD) (t : Fin cfg0.N) (r : Fin 2000) (j : Fin 256) :
    (iblk m c 0 t : Vec F S2000x256 .f32) (ix2 r j)
      = (V m c main_v4 : Vec F S500000x256 .f32) (ix2 (Cert.EdgeSpec.tileEdge (tile t) r) j) := by
  unfold iblk
  rw [View.read_apply]
  show (V m c main_v4 : Vec F S500000x256 .f32) _ = (V m c main_v4 : Vec F S500000x256 .f32) _
  congr 1
  funext a
  apply Fin.ext
  match a with
  | ⟨0, _⟩ =>
    show win0_0.index t 0 * 2000 + 1 * r.val = 2000 * t.val + r.val
    rw [(idx0 t).1]; omega
  | ⟨1, _⟩ =>
    show win0_0.index t 1 * 256 + 1 * j.val = j.val
    rw [(idx0 t).2]; omega

/-- Window 1's block index at point `t` is `(t, 0)`. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row `r` of window 1's block at point `t` is row `2000 t + r` of its array. -/
theorem blk1_apply (c : Dev nD) (t : Fin cfg0.N) (r : Fin 2000) (j : Fin 256) :
    (iblk m c 1 t : Vec F S2000x256 .f32) (ix2 r j)
      = (V m c main_v5 : Vec F S500000x256 .f32) (ix2 (Cert.EdgeSpec.tileEdge (tile t) r) j) := by
  unfold iblk
  rw [View.read_apply]
  show (V m c main_v5 : Vec F S500000x256 .f32) _ = (V m c main_v5 : Vec F S500000x256 .f32) _
  congr 1
  funext a
  apply Fin.ext
  match a with
  | ⟨0, _⟩ =>
    show win0_1.index t 0 * 2000 + 1 * r.val = 2000 * t.val + r.val
    rw [(idx1 t).1]; omega
  | ⟨1, _⟩ =>
    show win0_1.index t 1 * 256 + 1 * j.val = j.val
    rw [(idx1 t).2]; omega

/-- Window 2's block index at point `t` is `(t, 0)`. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row `r` of window 2's block at point `t` is row `2000 t + r` of its array. -/
theorem blk2_apply (c : Dev nD) (t : Fin cfg0.N) (r : Fin 2000) (j : Fin 1) :
    (iblk m c 2 t : Vec F S2000x1 .f32) (ix2 r j)
      = (V m c main_v6 : Vec F S500000x1 .f32) (ix2 (Cert.EdgeSpec.tileEdge (tile t) r) j) := by
  unfold iblk
  rw [View.read_apply]
  show (V m c main_v6 : Vec F S500000x1 .f32) _ = (V m c main_v6 : Vec F S500000x1 .f32) _
  congr 1
  funext a
  apply Fin.ext
  match a with
  | ⟨0, _⟩ =>
    show win0_2.index t 0 * 2000 + 1 * r.val = 2000 * t.val + r.val
    rw [(idx2 t).1]; omega
  | ⟨1, _⟩ =>
    show win0_2.index t 1 * 1 + 1 * j.val = j.val
    rw [(idx2 t).2]; omega

/-- Window 3's block index at point `t` is `(t, 0)`. -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Row `r` of window 3's block at point `t` is row `2000 t + r` of its array. -/
theorem blk3_apply (c : Dev nD) (t : Fin cfg0.N) (r : Fin 2000) (j : Fin 1) :
    (iblk m c 3 t : Vec F S2000x1 .i32) (ix2 r j)
      = (V m c main_v7 : Vec F S500000x1 .i32) (ix2 (Cert.EdgeSpec.tileEdge (tile t) r) j) := by
  unfold iblk
  rw [View.read_apply]
  show (V m c main_v7 : Vec F S500000x1 .i32) _ = (V m c main_v7 : Vec F S500000x1 .i32) _
  congr 1
  funext a
  apply Fin.ext
  match a with
  | ⟨0, _⟩ =>
    show win0_3.index t 0 * 2000 + 1 * r.val = 2000 * t.val + r.val
    rw [(idx3 t).1]; omega
  | ⟨1, _⟩ =>
    show win0_3.index t 1 * 1 + 1 * j.val = j.val
    rw [(idx3 t).2]; omega

/-- Window 4's block index is `(0, 0)` at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block at every point is its whole array. -/
theorem blk4_eq (c : Dev nD) (t : Fin cfg0.N) :
    (iblk m c 4 t : Vec F S513x342 .f32) = (V m c main_arg4 : Vec F S513x342 .f32) := by
  funext y
  unfold iblk
  rw [View.read_apply]
  show (V m c main_arg4 : Vec F S513x342 .f32) _ = (V m c main_arg4 : Vec F S513x342 .f32) y
  congr 1
  funext a
  apply Fin.ext
  match a with
  | ⟨0, _⟩ =>
    show win0_4.index t 0 * 513 + 1 * (y 0).val = (y 0).val
    rw [(idx4 t).1]; omega
  | ⟨1, _⟩ =>
    show win0_4.index t 1 * 342 + 1 * (y 1).val = (y 1).val
    rw [(idx4 t).2]; omega

/-- Window 5's block index is `(0, 0)` at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block at every point is its whole array. -/
theorem blk5_eq (c : Dev nD) (t : Fin cfg0.N) :
    (iblk m c 5 t : Vec F S1x342 .f32) = (V m c main_v8 : Vec F S1x342 .f32) := by
  funext y
  unfold iblk
  rw [View.read_apply]
  show (V m c main_v8 : Vec F S1x342 .f32) _ = (V m c main_v8 : Vec F S1x342 .f32) y
  congr 1
  funext a
  apply Fin.ext
  match a with
  | ⟨0, _⟩ =>
    show win0_5.index t 0 * 1 + 1 * (y 0).val = (y 0).val
    rw [(idx5 t).1]; omega
  | ⟨1, _⟩ =>
    show win0_5.index t 1 * 342 + 1 * (y 1).val = (y 1).val
    rw [(idx5 t).2]; omega

/-- Window 6's block index is `(0, 0)` at every point. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block at every point is its whole array. -/
theorem blk6_eq (c : Dev nD) (t : Fin cfg0.N) :
    (iblk m c 6 t : Vec F S342x171 .f32) = (V m c main_arg6 : Vec F S342x171 .f32) := by
  funext y
  unfold iblk
  rw [View.read_apply]
  show (V m c main_arg6 : Vec F S342x171 .f32) _ = (V m c main_arg6 : Vec F S342x171 .f32) y
  congr 1
  funext a
  apply Fin.ext
  match a with
  | ⟨0, _⟩ =>
    show win0_6.index t 0 * 342 + 1 * (y 0).val = (y 0).val
    rw [(idx6 t).1]; omega
  | ⟨1, _⟩ =>
    show win0_6.index t 1 * 171 + 1 * (y 1).val = (y 1).val
    rw [(idx6 t).2]; omega

/-- Window 7's block index is `(0, 0)` at every point. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block at every point is its whole array. -/
theorem blk7_eq (c : Dev nD) (t : Fin cfg0.N) :
    (iblk m c 7 t : Vec F S1x171 .f32) = (V m c main_v9 : Vec F S1x171 .f32) := by
  funext y
  unfold iblk
  rw [View.read_apply]
  show (V m c main_v9 : Vec F S1x171 .f32) _ = (V m c main_v9 : Vec F S1x171 .f32) y
  congr 1
  funext a
  apply Fin.ext
  match a with
  | ⟨0, _⟩ =>
    show win0_7.index t 0 * 1 + 1 * (y 0).val = (y 0).val
    rw [(idx7 t).1]; omega
  | ⟨1, _⟩ =>
    show win0_7.index t 1 * 171 + 1 * (y 1).val = (y 1).val
    rw [(idx7 t).2]; omega

/-- Window 8's block index is `(0, 0)` at every point. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block at every point is its whole array. -/
theorem blk8_eq (c : Dev nD) (t : Fin cfg0.N) :
    (iblk m c 8 t : Vec F S171x1 .f32) = (V m c main_arg8 : Vec F S171x1 .f32) := by
  funext y
  unfold iblk
  rw [View.read_apply]
  show (V m c main_arg8 : Vec F S171x1 .f32) _ = (V m c main_arg8 : Vec F S171x1 .f32) y
  congr 1
  funext a
  apply Fin.ext
  match a with
  | ⟨0, _⟩ =>
    show win0_8.index t 0 * 171 + 1 * (y 0).val = (y 0).val
    rw [(idx8 t).1]; omega
  | ⟨1, _⟩ =>
    show win0_8.index t 1 * 1 + 1 * (y 1).val = (y 1).val
    rw [(idx8 t).2]; omega

/-- Window 9's block index is `(0, 0)` at every point. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 9's block at every point is its whole array. -/
theorem blk9_eq (c : Dev nD) (t : Fin cfg0.N) :
    (iblk m c 9 t : Vec F S1x1 .f32) = (V m c main_v10 : Vec F S1x1 .f32) := by
  funext y
  unfold iblk
  rw [View.read_apply]
  show (V m c main_v10 : Vec F S1x1 .f32) _ = (V m c main_v10 : Vec F S1x1 .f32) y
  congr 1
  funext a
  apply Fin.ext
  match a with
  | ⟨0, _⟩ =>
    show win0_9.index t 0 * 1 + 1 * (y 0).val = (y 0).val
    rw [(idx9 t).1]; omega
  | ⟨1, _⟩ =>
    show win0_9.index t 1 * 1 + 1 * (y 1).val = (y 1).val
    rw [(idx9 t).2]; omega

end Cert.KernelIdeal.KValue

end
-- ==== Proof.KAccum.lean ====
/-
  The output buffer after each grid point, as a running sum.

  The buffer is reset and first updated at point 0 and updated at every later point, each update adding the point's
  contribution to what the point before left. If the body's payload, read at column `g`, is
  `accumulator + contribution of the point's tile`, then after point `n` column `g` holds the sum of the
  contributions of tiles `0 … n` — by induction on the point —, and after the last point the sum over all 250 tiles.
-/
import proofs.«410209_j74431783239747_1_alg».proof.Proof.KBlocks
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- The body's payload at point `t`, over an accumulator: the blocks the point loads, the accumulator it read. -/
abbrev payAt (c : Dev nD) (t : Fin cfg0.N) (acc : Vec Ideal S1x64 .f32) : Vec Ideal S1x64 .f32 :=
  k0_pay1 (F := Ideal) (k0_pay3 (iblk m c 0 t) (iblk m c 1 t) (iblk m c 2 t) (iblk m c 4 t) (iblk m c 5 t) (iblk m c 6 t) (iblk m c 7 t))
    (k0_pay4 (iblk m c 8 t)) (iblk m c 9 t) (iblk m c 3 t) acc

/-- The reset row is zero. -/
theorem pay2_zero (y : S1x64.Idx) : k0_pay2 (F := Ideal) y = 0 := by
  show Ideal.ofBits .f32 0x00000000#32 = 0
  exact Ideal.ofBits_zero_f32

/-- After point 0: the payload over the zero row. -/
theorem outsAt_zero (c : Dev nD) (h : 0 < cfg0.N) : outsAt0 m c 0 h = payAt m c ⟨0, h⟩ (k0_pay2 (F := Ideal)) :=
  (outsAt0_A m c ⟨0, h⟩ rfl).trans (out_A ..)

/-- After a later point: the payload over what the point before left. -/
theorem outsAt_succ (c : Dev nD) (n : ℕ) (h : n + 1 < cfg0.N) :
    outsAt0 m c (n + 1) h = payAt m c ⟨n + 1, h⟩ (outsAt0 m c n (Nat.lt_of_succ_lt h)) := by
  have hN : cfg0.N = 250 := N_0
  have hB : ¬(⟨n + 1, h⟩ : Fin cfg0.N).val % 250 = 0 := by dsimp only; omega
  rw [outsAt0_B m c ⟨n + 1, h⟩ hB, out_B]
  rfl

/-- Column `g` after point `n` is the sum of the contributions of tiles `0 … n`. -/
theorem outsAt_sum (c : Dev nD) (contrib : Fin 250 → Fin 64 → EReal)
    (hstep : ∀ (t : Fin cfg0.N) (acc : Vec Ideal S1x64 .f32) (g : Fin 64),
      payAt m c t acc (ix2 0 g) = acc (ix2 0 g) + contrib (tile t) g) (g : Fin 64) :
    ∀ (n : ℕ) (h : n < cfg0.N), outsAt0 m c n h (ix2 0 g)
      = ∑ t ∈ Finset.range (n + 1), (if ht : t < 250 then contrib ⟨t, ht⟩ g else 0)
  | 0, h => by
    rw [outsAt_zero, hstep, pay2_zero, zero_add, Finset.sum_range_one, dif_pos (lt_of_lt_of_eq h N_0)]
    rfl
  | n + 1, h => by
    rw [outsAt_succ, hstep, outsAt_sum c contrib hstep g n, Finset.sum_range_succ _ (n + 1), dif_pos (lt_of_lt_of_eq h N_0)]
    rfl

/-- Column `g` after the last point is the sum over all 250 tiles. -/
theorem outsAt_last (c : Dev nD) (contrib : Fin 250 → Fin 64 → EReal)
    (hstep : ∀ (t : Fin cfg0.N) (acc : Vec Ideal S1x64 .f32) (g : Fin 64),
      payAt m c t acc (ix2 0 g) = acc (ix2 0 g) + contrib (tile t) g) (g : Fin 64) (h : 249 < cfg0.N) :
    outsAt0 m c 249 h (ix2 0 g) = ∑ t : Fin 250, contrib t g := by
  rw [outsAt_sum m c contrib hstep g 249 h, Finset.sum_range]
  exact Finset.sum_congr rfl fun t _ => dif_pos t.isLt

end Cert.KernelIdeal.KValue

end
-- ==== Proof.KRun.lean ====
/-
  The kernel program's run, with its result named.

  The output window's block index never moves and the block is the whole [1,64] array; it is written back once, after
  the last grid point. So the array ends holding what the body left in the staging buffer at point 249, and the
  program's result is that row reshaped to a [64,1] column. The ten argument arrays end as they began.
-/
import proofs.«410209_j74431783239747_1_alg».proof.Proof.KPieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The grid has a point 249, its last. -/
theorem h249 : 249 < cfg0.N := lt_of_lt_of_eq (by decide : 249 < 250) N_0.symm

/-- The last grid point. -/
def tl : Fin cfg0.N := ⟨249, h249⟩

/-- The output window's block index is `(0, 0)` at every point, and its block is the whole [1,64] array. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem xsz10 : ∀ t : Fin cfg0.N, win0_10.xsize (grid0.coords t) (0 : Fin 2) = 1 ∧ win0_10.xsize (grid0.coords t) (1 : Fin 2) = 64 :=
  (by decide +kernel : ∀ t : Fin grid0.N, win0_10.xsize (grid0.coords t) (0 : Fin 2) = 1 ∧ win0_10.xsize (grid0.coords t) (1 : Fin 2) = 64)

/-- What the output array ends holding: the staging buffer's contents after the last point. -/
abbrev result (c : Dev nD) : Buf (Elt F) ((c : Thread nD τ).loc main_v11) := outsAt0 m c 249 h249

/-- The one write-back, at the last point, writes the whole row: block (0, 0) of the [1,64] array is the array. -/
theorem flushed_eq (c : Dev nD) (t : Fin cfg0.N) (hf : (cfg0.win 10).flush t = true) :
    (dats m 0 c).flushed 10 t = ((cfg0.win 10).blk t).view.read (Elt F) (result m c) := by
  have hN : cfg0.N = 250 := N_0
  have h3 : t.val = 249 := by have := (flush0_10 t).mp hf; have := t.isLt; omega
  show (cfg0.win 10).cut (grid0.coords t) ((dats m 0 c).after 10 t) = _
  rw [after0_10]
  have hres : outsAt0 m c t.val t.isLt = result m c := by
    obtain ⟨n, hn⟩ := t
    dsimp only at h3
    subst h3
    rfl
  rw [hres]
  have hz' : (fun a => win0_10.index t a * main_v11.ty.shape.size a) = fun _ => 0 := funext fun a => by
    match a with
    | ⟨0, _⟩ => show win0_10.index t 0 * _ = 0; rw [(idx10 t).1, Nat.zero_mul]
    | ⟨1, _⟩ => show win0_10.index t 1 * _ = 0; rw [(idx10 t).2, Nat.zero_mul]
  exact (Memref.read_access_unit_zero (Elt F) main_v11 hz' (fun a => by rw [congrFun hz' a]; simp) (result m c)).symm

/-- So the output array ends holding `result`: the last point's write-back covers it. -/
theorem final_o (c : Dev nD) : (dats m 0 c).arrAt 10 cfg0.N = result m c :=
  (dats m 0 c).arrAt_eq_of_cover 10 (result m c) (flushed_eq m c) fun i =>
    ⟨tl, (flush0_10 tl).mpr rfl, by
      show i ∈ ((View.whole main_v11).slice (win0_10.rect tl)).set
      rw [View.set_slice_whole, Rect.mem_set_unit]
      intro a
      have h0 : (i 0 : Nat) < 1 := (i 0).isLt
      have h1 : (i 1 : Nat) < 64 := (i 1).isLt
      match a with
      | ⟨0, _⟩ => show win0_10.index tl 0 * win0_10.size 0 ≤ (i 0 : Nat) ∧ (i 0 : Nat) < win0_10.index tl 0 * win0_10.size 0 + win0_10.xsize (grid0.coords tl) 0
                  rw [(idx10 tl).1, (xsz10 tl).1, Nat.zero_mul]; omega
      | ⟨1, _⟩ => show win0_10.index tl 1 * win0_10.size 1 ≤ (i 1 : Nat) ∧ (i 1 : Nat) < win0_10.index tl 1 * win0_10.size 1 + win0_10.xsize (grid0.coords tl) 1
                  rw [(idx10 tl).2, (xsz10 tl).2, Nat.zero_mul]; omega⟩

/-- The program's result: the row reshaped to a column. -/
abbrev column (c : Dev nD) : Buf (Elt F) ((c : Thread nD τ).loc main_v12) :=
  shapeCast _ (result m c) shapeCasts_S1x64_S64x1

/-- The one operation after the region reshapes the output array. -/
theorem tail_eq (c : Dev nD) :
    Pipeline.afterTail₀ cfgs (dats m) 0 (V0 m) [hostOps1] c main_v12 = column m c := by
  unfold Pipeline.afterTail₀
  show StableHlo.after hostOps1 _ (Proc.devRef .tc main_v12) = _
  after_results
  exact congrArg (fun x => shapeCast _ x shapeCasts_S1x64_S64x1)
    ((Pipeline.withArrays_arr spec0 launch0.win.arr_inj c _ _ 10).trans (final_o m c))

/-- The run, read: the result at `column`, every argument array unchanged. -/
theorem run : θ_run defs (onTc (τ := τ) (main (F := F))) ⟨m, fun _ => 0, ρ⟩ fun r => ∀ c : Dev nD,
      r.2.mem ((c.tc : Thread nD τ).loc main_v12) = column m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v12 (Pipeline.mem_restRefs_of main_v12 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c))⟩) (run_main m ρ)

end Cert.KernelIdeal.KValue

end
-- ==== Proof.LibPlainDot.lean ====
/-
  A plain matrix product `[M, K] × [K, N] → [M, N]` (no batch axis; the left operand contracts its axis 1, the right
  its axis 0) into a zero accumulator, read at `(p, q)` at the ideal values: the sum over `k` of the left operand at
  `(p, k)` times the right at `(k, q)`. General in the extents, the element types and the precision; the dimension
  record enters only through its six lists. Nothing here depends on a kernel.
-/
import Idealize.ShloMosaic.PureOps.Ideal.Laws
import Idealize.ShloMosaic.Lib.ValueIdx

namespace Idealize.ShloMosaic.PlainDot

open Idealize.ShloMosaic Idealize.ShloMosaic.ValueIdx

variable {sl sr so : Shape}

/-- With no batch axis and ONE non-contracting left axis `a`, the left index on `a` is the result index's axis 0. -/
theorem lhsIdx_val_of_non (d : DotDims sl sr so) {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting left axis and ONE non-contracting right axis `a`, the right index on `a` is
    the result index's axis 1. -/
theorem rhsIdx_val_of_non (d : DotDims sl sr so) {a : Fin sr.rank} {al : Fin sl.rank} (hlb : d.lhsBatch = []) (hrb : d.rhsBatch = [])
    (hln : d.lhsNonContracting = [al]) (hn : d.rhsNonContracting = [a])
    (j : so.Idx) (k : d.contr.Idx) (h1 : 1 < so.rank) : (d.rhsIdx j k a).val = (j ⟨1, h1⟩).val := by
  have hnb : a ∉ d.rhsBatch := by rw [hrb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- One contracting axis: the contraction shape has rank one. -/
theorem contr_rank_one (d : DotDims sl sr so) {cl : Fin sl.rank} (hc : d.lhsContracting = [cl]) : d.contr.rank = 1 := by
  rw [d.rank_contr, hc]; rfl

/-- … and its one extent is the left operand's on that axis. -/
theorem contr_size_zero (d : DotDims sl sr so) {cl : Fin sl.rank} (hc : d.lhsContracting = [cl]) (h : 0 < d.contr.rank) :
    d.contr.size ⟨0, h⟩ = sl.size cl := by
  rw [d.size_contr 0 (by rw [hc]; exact Nat.one_pos)]
  simp [hc]

/-- THE PLAIN PRODUCT at `(p, q)`. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := contr_rank_one d hlc
  have hs : d.contr.size ⟨0, by omega⟩ = K := (contr_size_zero d hlc (by omega)).trans rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_val_of_non d hlb hln _ _ (by show 0 < 2; omega)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_val_of_non d hlb hrb hln hrn _ _ (by show 1 < 2; omega))
  rw [el, er]

end Idealize.ShloMosaic.PlainDot
-- ==== Proof.PayValue.lean ====
/-
  The kernel body's arithmetic at the ideal values, read at one output column.

  One grid step holds a tile of 2000 edges. Row `r` of the tile has 513 features: the 256 of its source block, the 256
  of its destination block and its attribute, laid side by side. Three matrix products with bias, the first two followed
  by `max · 0`, give the row's score; the one-hot mask `[graph id of r = g]`, a 0/1 number, multiplies the score, and the
  column sum over the 2000 rows is added to the accumulator's column `g`. Every format change is the identity on the
  extended reals, so what is left is the perceptron of `Cert.EdgeSpec.score` on `Cert.EdgeSpec.feat`.

  The lemmas go layer by layer over explicit coordinates: the features, the first hidden layer, the second, the score
  column, the mask, and last the accumulated column sum.
-/
import proofs.«410209_j74431783239747_1_alg».proof.Proof.Gen.KernelIdeal.Skeleton
import proofs.«410209_j74431783239747_1_alg».proof.Proof.EdgeSpec
import proofs.«410209_j74431783239747_1_alg».proof.Proof.LibPlainDot
import Idealize.ShloMosaic.Lib.Pipeline.Value
import Idealize.ShloMosaic.Lib.ValueLayout
import Idealize.ShloMosaic.PureOps.Ideal.Laws

noncomputable section
open Idealize.ShloMosaic Idealize.ShloMosaic.ValueIdx Idealize.ShloMosaic.TcCoe Idealize.SL.Sem

namespace Cert.KernelIdeal.PayValue
open Cert.KernelIdeal Cert.KernelIdeal.Gen

/-! ## Layout and word facts used below -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-bit equality test, widened to a word and read as a signed integer, is the number 1 where the two words are
    equal and the number 0 where they are not. -/
theorem mask_word (a b : BitVec 32) :
    (FloatOps.sitofp (F := Ideal) .f32 ((IntOp.cmpi .eq a b).setWidth 32) : EReal) = if a = b then (1 : EReal) else 0 := by
  show ((((IntOp.cmpi .eq a b).setWidth 32).toInt : ℝ) : EReal) = _
  by_cases h : a = b
  · rw [if_pos h]
    subst h
    simp [IntOp.cmpi]
  · rw [if_neg h]
    have hb : (a == b) = false := by simpa using h
    simp [IntOp.cmpi, hb]

/-! ## The features of a row -/

/-- Row `r` of three blocks laid side by side along axis 1, read at feature `i`: the first block below 256, the second
    from 256 to 511, the one-column third at 512. -/
theorem concat3_apply (p0 p1 : FVec Ideal S2000x256 .bf16) (p2 : FVec Ideal S2000x1 .bf16)
    (hcat : Shape.Concatenates [S2000x256, S2000x256, S2000x1] S2000x513 1) (r : Fin 2000) (i : Fin 513) :
    (concatenate S2000x513 1 [⟨S2000x256, p0⟩, ⟨S2000x256, p1⟩, ⟨S2000x1, p2⟩] hcat : FVec Ideal S2000x513 .bf16) (ix2 r i)
      = Cert.EdgeSpec.feat (fun i => p0 (ix2 r i)) (fun i => p1 (ix2 r i)) (p2 (ix2 r 0)) i := by
  unfold Cert.EdgeSpec.feat
  by_cases h1 : i.val < 256
  · rw [dif_pos h1]
    refine concatenate_apply_piece (1 : Fin S2000x513.rank) [⟨S2000x256, p0⟩, ⟨S2000x256, p1⟩, ⟨S2000x1, p2⟩] hcat (ix2 r i)
      0 (by show (0 : ℕ) < 3; omega) S2000x256 p0 rfl rfl 0 rfl (ix2 r ⟨i.val, h1⟩) (fun b hb' => ?_) ?_
    · match b with
      | ⟨0, _⟩ => rfl
      | ⟨1, _⟩ => exact absurd rfl hb'
    · show 0 + i.val = i.val
      omega
  · rw [dif_neg h1]
    by_cases h2 : i.val < 512
    · rw [dif_pos h2]
      refine concatenate_apply_piece (1 : Fin S2000x513.rank) [⟨S2000x256, p0⟩, ⟨S2000x256, p1⟩, ⟨S2000x1, p2⟩] hcat (ix2 r i)
        1 (by show (1 : ℕ) < 3; omega) S2000x256 p1 rfl rfl 256 rfl (ix2 r ⟨i.val - 256, by omega⟩) (fun b hb' => ?_) ?_
      · match b with
        | ⟨0, _⟩ => rfl
        | ⟨1, _⟩ => exact absurd rfl hb'
      · show 256 + (i.val - 256) = i.val
        omega
    · rw [dif_neg h2]
      have hi : i.val = 512 := by have := i.isLt; omega
      refine concatenate_apply_piece (1 : Fin S2000x513.rank) [⟨S2000x256, p0⟩, ⟨S2000x256, p1⟩, ⟨S2000x1, p2⟩] hcat (ix2 r i)
        2 (by show (2 : ℕ) < 3; omega) S2000x1 p2 rfl rfl 512 rfl (ix2 r (0 : Fin 1)) (fun b hb' => ?_) ?_
      · match b with
        | ⟨0, _⟩ => rfl
        | ⟨1, _⟩ => exact absurd rfl hb'
      · show 512 + 0 = i.val
        omega

/-! ## One dense layer

A plain `[M, K] × [K, N]` product into the zero accumulator plus a bias row broadcast over the `M` rows, read at `(p, q)`,
is `Σ k, X (p, k) · W (k, q) + b (0, q)`; the format changes on the way are the identity. With `max · 0` after it this is
one hidden unit; without, the score. -/

/-- The product plus the bias row, at `(p, q)`. -/
theorem dense_apply {M K N : ℕ} (d : DotDims ⟨2, ![M, K]⟩ ⟨2, ![K, N]⟩ ⟨2, ![M, N]⟩)
    (hlc : d.lhsContracting = [1]) (hrc : d.rhsContracting = [0]) (hln : d.lhsNonContracting = [0]) (hrn : d.rhsNonContracting = [1])
    (hlb : d.lhsBatch = []) (hrb : d.rhsBatch = [])
    (X : FVec Ideal ⟨2, ![M, K]⟩ .bf16) (W : FVec Ideal ⟨2, ![K, N]⟩ .bf16) (b : FVec Ideal ⟨2, ![1, N]⟩ .f32)
    (hc : (⟨2, ![1, N]⟩ : Shape).ShapeCasts ⟨2, ![1, N]⟩) (hbr : (⟨2, ![1, N]⟩ : Shape).Broadcasts ⟨2, ![M, N]⟩)
    (p : Fin M) (q : Fin N) :
    (addf (matmul d none X W (constant (F := Ideal) ⟨2, ![M, N]⟩ .f32 0x00000000#32))
        (broadcastTo ⟨2, ![M, N]⟩ (shapeCast ⟨2, ![1, N]⟩ b hc) hbr) : FVec Ideal ⟨2, ![M, N]⟩ .f32) (ix2 p q)
      = (∑ k : Fin K, X (ix2 p k) * W (ix2 k q)) + b (ix2 0 q) := by
  have hm := PlainDot.matmul_plain_apply d hlc hrc hln hrn hlb hrb none X W p q
  have hbias : broadcastTo ⟨2, ![M, N]⟩ (shapeCast ⟨2, ![1, N]⟩ b hc) hbr (ix2 p q) = b (ix2 0 q) := by
    rw [shapeCast_self]
    exact broadcastTo_1b_ab_apply b hbr p q
  exact congrArg₂ (· + ·) hm hbias

/-- The same followed by `max · 0` and a format change: one hidden unit. -/
theorem dense_relu_apply {M K N : ℕ} (d : DotDims ⟨2, ![M, K]⟩ ⟨2, ![K, N]⟩ ⟨2, ![M, N]⟩)
    (hlc : d.lhsContracting = [1]) (hrc : d.rhsContracting = [0]) (hln : d.lhsNonContracting = [0]) (hrn : d.rhsNonContracting = [1])
    (hlb : d.lhsBatch = []) (hrb : d.rhsBatch = [])
    (X : FVec Ideal ⟨2, ![M, K]⟩ .bf16) (W : FVec Ideal ⟨2, ![K, N]⟩ .bf16) (b : FVec Ideal ⟨2, ![1, N]⟩ .f32)
    (hc : (⟨2, ![1, N]⟩ : Shape).ShapeCasts ⟨2, ![1, N]⟩) (hbr : (⟨2, ![1, N]⟩ : Shape).Broadcasts ⟨2, ![M, N]⟩)
    (hb : FTy.bits .bf16 < FTy.bits .f32) (p : Fin M) (q : Fin N) :
    (truncf .bf16 (maximumf (addf (matmul d none X W (constant (F := Ideal) ⟨2, ![M, N]⟩ .f32 0x00000000#32))
          (broadcastTo ⟨2, ![M, N]⟩ (shapeCast ⟨2, ![1, N]⟩ b hc) hbr))
        (broadcast ⟨2, ![M, N]⟩ (Scalar.ofBits (F := Ideal) .f32 0x00000000#32))) hb : FVec Ideal ⟨2, ![M, N]⟩ .bf16) (ix2 p q)
      = max ((∑ k : Fin K, X (ix2 p k) * W (ix2 k q)) + b (ix2 0 q)) 0 :=
  congrArg₂ max (dense_apply d hlc hrc hln hrn hlb hrb X W b hc hbr p q) Ideal.ofBits_zero_f32

/-! ## The two hidden layers of a row -/

/-- Unit `k` of the second hidden layer of row `r`, from the loaded blocks. -/
theorem pay3_apply (x0 x1 : Vec Ideal S2000x256 .f32) (x2 : Vec Ideal S2000x1 .f32)
    (x4 : Vec Ideal S513x342 .f32) (x5 : Vec Ideal S1x342 .f32) (x6 : Vec Ideal S342x171 .f32) (x7 : Vec Ideal S1x171 .f32)
    (r : Fin 2000) (k : Fin 171) :
    k0_pay3 (F := Ideal) x0 x1 x2 x4 x5 x6 x7 (ix2 r k)
      = Cert.EdgeSpec.hidden2 (fun j k => x6 (ix2 j k)) (fun k => x7 (ix2 0 k))
          (Cert.EdgeSpec.hidden1 (fun i j => x4 (ix2 i j)) (fun j => x5 (ix2 0 j))
            (Cert.EdgeSpec.feat (fun i => x0 (ix2 r i)) (fun i => x1 (ix2 r i)) (x2 (ix2 r 0)))) k := by
  unfold k0_pay3 Cert.EdgeSpec.hidden2
  refine (dense_relu_apply dot_S2000x342_S342x171_S2000x171_1_0_0_1_n_n rfl rfl rfl rfl rfl rfl _ _ x7 _ _ _ r k).trans ?_
  refine congrArg (fun s => max (s + x7 (ix2 0 k)) 0) (Finset.sum_congr rfl fun j _ => ?_)
  refine congrArg (· * x6 (ix2 j k)) ?_
  unfold Cert.EdgeSpec.hidden1
  refine (dense_relu_apply dot_S2000x513_S513x342_S2000x342_1_0_0_1_n_n rfl rfl rfl rfl rfl rfl _ _ x5 _ _ _ r j).trans ?_
  refine congrArg (fun s => max (s + x5 (ix2 0 j)) 0) (Finset.sum_congr rfl fun i _ => ?_)
  refine congrArg (· * x4 (ix2 i j)) ?_
  refine (concat3_apply _ _ _ _ r i).trans ?_
  rw [shapeCast_self, shapeCast_self, shapeCast_self]
  rfl

/-! ## The mask and the column sums -/

/-- The one-hot mask at `(r, g)`: the number 1 where row `r`'s graph id is the word of `g`, else 0. The graph ids are a
    column broadcast over the 64 lanes, the lane numbers a row of `iota` broadcast over the 2000 rows. -/
theorem mask_apply (x3 : Vec Ideal S2000x1 .i32) (hc : S2000x1.ShapeCasts S2000x1) (hb1 : S2000x1.Broadcasts S2000x64)
    (hio : S1x64.Iotas .tc 32 [1]) (hb2 : S1x64.Broadcasts S2000x64) (hlt : 1 < 32) (r : Fin 2000) (g : Fin 64) :
    (sitofp (F := Ideal) .f32 (extui 32 (cmpi .eq (broadcastTo S2000x64 (shapeCast S2000x1 x3 hc : IVec S2000x1 32) hb1)
        (broadcastTo S2000x64 (iota .tc S1x64 32 [1] hio) hb2)) hlt) : FVec Ideal S2000x64 .f32) (ix2 r g)
      = if x3 (ix2 r 0) = BitVec.ofNat 32 g.val then (1 : EReal) else 0 := by
  have e1 : broadcastTo S2000x64 (shapeCast S2000x1 x3 hc : IVec S2000x1 32) hb1 (ix2 r g) = x3 (ix2 r 0) := by
    rw [shapeCast_self]
    exact broadcastTo_a1_ab_apply (b := 64) x3 hb1 r g
  have e2 : broadcastTo S2000x64 (iota .tc S1x64 32 [1] hio) hb2 (ix2 r g) = BitVec.ofNat 32 g.val :=
    (broadcastTo_1b_ab_apply (a := 2000) (iota .tc S1x64 32 [1] hio) hb2 r g).trans
      (iota_single_apply .tc S1x64 32 1 hio (ix2 0 g))
  refine Eq.trans ?_ (mask_word (x3 (ix2 r 0)) (BitVec.ofNat 32 g.val))
  show FloatOps.sitofp (F := Ideal) .f32 ((IntOp.cmpi .eq
      (broadcastTo S2000x64 (shapeCast S2000x1 x3 hc : IVec S2000x1 32) hb1 (ix2 r g))
      (broadcastTo S2000x64 (iota .tc S1x64 32 [1] hio) hb2 (ix2 r g))).setWidth 32) = _
  rw [e1, e2]

/-- The column sums of a `[2000, 64]` block, stored as a `[1, 64]` row, at column `g`. -/
theorem colsum_apply (v : FVec Ideal S2000x64 .f32) (h : S2000x64.Reduces [0] S64) (hφ : FKind.Formats .f32)
    (hacc : (0x00000000#32 : BitVec 32) = FKind.add.neutral .f32 hφ) (hc : S64.ShapeCasts S1x64) (g : Fin 64) :
    (shapeCast S1x64 (multiReduction (F := Ideal) .add [0] S64 v 0x00000000#32 h hφ hacc) hc : FVec Ideal S1x64 .f32) (ix2 0 g)
      = ∑ r : Fin 2000, v (ix2 r g) := by
  refine (shapeCast_addUnit_apply ![64] _ hc (ix2 0 g)).trans ?_
  refine (Ideal.multiReduction_add_single v _ h hφ hacc _).trans ?_
  refine Finset.sum_congr rfl fun r _ => congrArg v ?_
  funext a
  match a with
  | ⟨0, _⟩ => rfl
  | ⟨1, _⟩ => rfl

/-! ## The body's value at an output column -/

theorem pay_apply (x0 x1 : Vec Ideal S2000x256 .f32) (x2 : Vec Ideal S2000x1 .f32) (x3 : Vec Ideal S2000x1 .i32)
    (x4 : Vec Ideal S513x342 .f32) (x5 : Vec Ideal S1x342 .f32) (x6 : Vec Ideal S342x171 .f32) (x7 : Vec Ideal S1x171 .f32)
    (x8 : Vec Ideal S171x1 .f32) (x9 : Vec Ideal S1x1 .f32) (acc : Vec Ideal S1x64 .f32) (g : Fin 64) :
    k0_pay1 (F := Ideal) (k0_pay3 x0 x1 x2 x4 x5 x6 x7) (k0_pay4 x8) x9 x3 acc (ix2 0 g)
      = acc (ix2 0 g) + ∑ r : Fin 2000, (if x3 (ix2 r 0) = BitVec.ofNat 32 g.val then (1 : EReal) else 0)
          * Cert.EdgeSpec.score (fun i j => x4 (ix2 i j)) (fun j => x5 (ix2 0 j)) (fun j k => x6 (ix2 j k)) (fun k => x7 (ix2 0 k))
              (fun k => x8 (ix2 k 0)) (x9 (ix2 0 0))
              (Cert.EdgeSpec.feat (fun i => x0 (ix2 r i)) (fun i => x1 (ix2 r i)) (x2 (ix2 r 0))) := by
  unfold k0_pay1 k0_pay4
  refine congrArg₂ (· + ·) (congrFun (shapeCast_self acc _) (ix2 0 g)) ?_
  refine (colsum_apply _ _ _ _ _ g).trans ?_
  refine Finset.sum_congr rfl fun r _ => ?_
  refine congrArg₂ (· * ·) (mask_apply x3 _ _ _ _ _ r g) ?_
  refine (broadcastTo_a1_ab_apply _ _ r g).trans ?_
  unfold Cert.EdgeSpec.score
  refine (dense_apply dot_S2000x171_S171x1_S2000x1_1_0_0_1_n_n rfl rfl rfl rfl rfl rfl _ _ x9 _ _ r 0).trans ?_
  refine congrArg (· + x9 (ix2 0 0)) (Finset.sum_congr rfl fun k _ => ?_)
  refine congrArg (· * x8 (ix2 k 0)) ?_
  exact pay3_apply x0 x1 x2 x4 x5 x6 x7 r k

end Cert.KernelIdeal.PayValue
end
-- ==== Proof.HostValue.lean ====
/-
  What the host operations before the kernel leave in the arrays the kernel reads, read at an index.

  Before its kernel the program cuts the edge-index array into a source and a destination index vector, looks each up
  in the node table (a negative index counts from the end; the row is gathered where the wrapped index is inside the
  table and is a NaN row elsewhere), and reshapes the edge attributes, the graph ids and the three biases to columns
  and rows. Each of these arrays is one term over the argument arrays (`e_v4`, `e_v5` and the reshapes); read at an
  index, an in-range node index keeps its gathered row (the in-table test is 1 there, so the select keeps the gather),
  and a reshape to a column or a row reads the vector's entry.
-/
import proofs.«410209_j74431783239747_1_alg».proof.Defs
import proofs.«410209_j74431783239747_1_alg».proof.Proof.Gen.KernelIdeal.Frame
import proofs.«410209_j74431783239747_1_alg».proof.Proof.EdgeSpec
import Idealize.ShloMosaic.Lib.StableHlo.Run
import Idealize.ShloMosaic.Lib.ValueLayout
import Idealize.ShloMosaic.PureOps.Reduce
import Idealize.ShloMosaic.Lib.Affine

noncomputable section
open Idealize.ShloMosaic Idealize.ShloMosaic.ValueIdx Idealize.ShloMosaic.TcCoe Idealize.SL.Sem

namespace Cert.KernelIdeal.HostValue
open Cert.KernelIdeal Cert.KernelIdeal.Gen
open Idealize.ShloMosaic.StableHlo

/-! ## Small general facts -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduction by `and` from 1 is 1 at `j` when every operand entry that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ (fun i hi => hx i ?_)
  have := (List.mem_filter.1 hi).2
  exact of_decide_eq_true this

/-- A word that does not read negative is left alone by the wrap. -/
theorem wrap_of_inRange (w : BitVec 32) (hw : 0 ≤ w.toInt) : Cert.EdgeSpec.wrap w = w := by
  have hs : w.slt 0#32 = false := by
    simp only [BitVec.slt, BitVec.toInt_zero, decide_eq_false_iff_not, not_lt]
    exact hw
  have hc : Scalar.cmpi .slt w 0#32 = 0#1 := by
    show BitVec.ofBool (w.slt 0#32) = 0#1
    rw [hs]; rfl
  unfold Cert.EdgeSpec.wrap
  rw [hc, select_zero]

/-! ## The row lookup the program performs before its kernel, as one term -/

/-- The index vector with each negative entry counted from the end of the 100000-row table. -/
def wrapV (idx : IVec S500000 32) : IVec S500000 32 :=
  select (cmpi .slt idx (broadcastInDim S500000 ![] bcast_S_S500000 (constantI S_ 32 0#32)))
    (addi idx (broadcastInDim S500000 ![] bcast_S_S500000 (constantI S_ 32 100000#32))) idx

/-- The wrapped indices as a column. -/
def colV (idx : IVec S500000 32) : IVec S500000x1 32 :=
  broadcastInDim S500000x1 ![0] bcast_S500000_S500000x1_0 (wrapV idx)

/-- Per entry: is the wrapped index inside the table (at least 0 and at most 99999), the test reduced by `and` over
    the column's unit axis. -/
def maskV (idx : IVec S500000 32) : IVec S500000 1 :=
  Host.reduce IntOp.andi
    (andi (cmpi .sge (colV idx) (broadcastInDim S500000x1 ![] bcast_S_S500000x1 (constantI S_ 32 0#32)))
      (cmpi .sle (colV idx) (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- The rows of `x` the indices name: the gathered row where the index is inside the table, a NaN row elsewhere. -/
def takeV (x : FVec Ideal S100000x256 .f32) (idx : IVec S500000 32) : FVec Ideal S500000x256 .f32 :=
  select (broadcastInDim S500000x256 ![0] bcast_S500000_S500000x256_0 (maskV idx))
    (Host.gather gather_S100000x256_S500000x1_S500000x256_1_0_n_n_0_1_1256 x (colV idx))
    (broadcastInDim S500000x256 ![] bcast_S_S500000x256 (constant (F := Ideal) S_ .f32 0x7FC00000#32))

/-- Row 0 of the edge-index array (the source indices) as a vector. -/
def rowV0 (E : IVec S2x500000 32) : IVec S500000 32 :=
  shapeCast S500000 (extractStridedSlice S1x500000 ![0, 0] E slices_S2x500000_S1x500000_0_0) shapeCasts_S1x500000_S500000
/-- Row 1 of the edge-index array (the destination indices) as a vector. -/
def rowV1 (E : IVec S2x500000 32) : IVec S500000 32 :=
  shapeCast S500000 (extractStridedSlice S1x500000 ![1, 0] E slices_S2x500000_S1x500000_1_0) shapeCasts_S1x500000_S500000

/-- Entry `e` of row 0 of the edge-index array. -/
theorem rowV0_apply (E : IVec S2x500000 32) (e : Fin 500000) : rowV0 E (ix1 e) = E (ix2 0 e) :=
  (shapeCast_1a_a_apply _ shapeCasts_S1x500000_S500000 e).trans (slice2_axis0_apply 0 E slices_S2x500000_S1x500000_0_0 0 e 0 rfl)
/-- Entry `e` of row 1 of the edge-index array. -/
theorem rowV1_apply (E : IVec S2x500000 32) (e : Fin 500000) : rowV1 E (ix1 e) = E (ix2 1 e) :=
  (shapeCast_1a_a_apply _ shapeCasts_S1x500000_S500000 e).trans (slice2_axis0_apply 1 E slices_S2x500000_S1x500000_1_0 0 e 1 rfl)

/-! ## The lookup read at one entry -/

/-- Entry `e` of the wrapped index vector is the wrapped entry. -/
theorem wrapV_apply (idx : IVec S500000 32) (e : Fin 500000) : wrapV idx (ix1 e) = Cert.EdgeSpec.wrap (idx (ix1 e)) := rfl

/-- The column at `(e, u)` is entry `e` of the wrapped index vector. -/
theorem colV_apply (idx : IVec S500000 32) (e : Fin 500000) (u : Fin 1) : colV idx (ix2 e u) = Cert.EdgeSpec.wrap (idx (ix1 e)) := by
  unfold colV
  rw [← wrapV_apply]
  generalize wrapV idx = y
  exact broadcastInDim_apply _ bcast_S500000_S500000x1_0 y (ix2 e u) (ix1 e) (fun a => match a with
    | ⟨0, _⟩ => by show e.val = if (500000 : Nat) = 1 then 0 else e.val; rw [if_neg (by decide)])

/-- The in-table test at an entry whose index reads as a row number: 1. -/
theorem maskV_apply (idx : IVec S500000 32) (e : Fin 500000)
    (hw : 0 ≤ (idx (ix1 e)).toInt ∧ (idx (ix1 e)).toInt < 100000) : maskV idx (ix1 e) = 1#1 := by
  unfold maskV
  refine reduce_andi_one _ _ _ _ _ rfl (fun i hi => ?_)
  -- the one operand entry that reduces into e is (e, 0)
  have h0 : i 0 = e := by
    apply Fin.ext
    have := Shape.ReducesTo.drop_apply_val_of_eq reducesTo_S500000x1_S500000_d1 i 0 0
    rw [hi] at this
    exact this.symm
  have hi' : i = ix2 e (0 : Fin 1) := by
    funext a
    match a with
    | ⟨0, _⟩ => exact h0
    | ⟨1, _⟩ => exact Fin.ext (by have := idx2_lt1 i; show (i 1).val = 0; omega)
  rw [hi']
  show IntOp.andi (IntOp.cmpi .sge (colV idx (ix2 e 0)) 0#32) (IntOp.cmpi .sle (colV idx (ix2 e 0)) 99999#32) = 1#1
  rw [colV_apply, wrap_of_inRange _ hw.1]
  refine IntOp.andi_eq_one.2 ⟨IntOp.cmpi_sge.2 hw.1, IntOp.cmpi_sle.2 ?_⟩
  have h9 : (99999#32 : BitVec 32).toInt = 99999 := by decide
  omega

/-- The lookup at `(e, j)` when entry `e` of the index vector reads as a row number: that row of the table. -/
theorem takeV_apply (x : FVec Ideal S100000x256 .f32) (idx : IVec S500000 32) (e : Fin 500000) (j : Fin 256)
    (hw : 0 ≤ (idx (ix1 e)).toInt ∧ (idx (ix1 e)).toInt < 100000) :
    takeV x idx (ix2 e j) = x (ix2 (Cert.EdgeSpec.nodeRow (idx (ix1 e))) j) := by
  unfold takeV
  rw [select_apply]
  have hm : broadcastInDim S500000x256 ![0] bcast_S500000_S500000x256_0 (maskV idx) (ix2 e j) = 1#1 := by
    rw [← maskV_apply idx e hw]
    generalize maskV idx = y
    exact broadcastInDim_apply _ bcast_S500000_S500000x256_0 y (ix2 e j) (ix1 e) (fun a => match a with
      | ⟨0, _⟩ => by show e.val = if (500000 : Nat) = 1 then 0 else e.val; rw [if_neg (by decide)])
  rw [hm, select_one]
  rw [Cert.Decode.gather_rows gather_S100000x256_S500000x1_S500000x256_1_0_n_n_0_1_1256 rfl rfl rfl rfl rfl rfl rfl x (colV idx) e j (by decide),
    colV_apply]
  rfl

variable (m : (ℓ : Loc nD τ sig) → Buf (Elt Ideal) ℓ) (c : Dev nD)
/-- the argument arrays, at their literal types -/
abbrev argX : FVec Ideal S100000x256 .f32 := m ((c.tc : Thread nD τ).loc main_arg0)
abbrev argE : IVec S2x500000 32 := m ((c.tc : Thread nD τ).loc main_arg1)
abbrev argA : FVec Ideal S500000 .f32 := m ((c.tc : Thread nD τ).loc main_arg2)
abbrev argB : IVec S500000 32 := m ((c.tc : Thread nD τ).loc main_arg3)
abbrev argB1 : FVec Ideal S342 .f32 := m ((c.tc : Thread nD τ).loc main_arg5)
abbrev argB2 : FVec Ideal S171 .f32 := m ((c.tc : Thread nD τ).loc main_arg7)
abbrev argB3 : FVec Ideal S1 .f32 := m ((c.tc : Thread nD τ).loc main_arg9)

/-! ## The arrays the kernel reads, each as one term over the argument arrays -/

/-- The source rows: the lookup of row 0 of the edge-index array. -/
theorem e_v4 : (V m c main_v4 : S500000x256.Idx → EReal) = takeV (argX m c) (rowV0 (argE m c)) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  simp only [TRef.ofBuf, TRef.toBuf, cast_eq]
  rfl
/-- The destination rows: the lookup of row 1 of the edge-index array. -/
theorem e_v5 : (V m c main_v5 : S500000x256.Idx → EReal) = takeV (argX m c) (rowV1 (argE m c)) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  simp only [TRef.ofBuf, TRef.toBuf, cast_eq]
  rfl

/-! ## Read at an index -/

theorem V_v4 (hr : ∀ (i : Fin 2) (e : Fin 500000), 0 ≤ (argE m c (ix2 i e)).toInt ∧ (argE m c (ix2 i e)).toInt < 100000)
    (e : Fin 500000) (j : Fin 256) :
    (V m c main_v4 : S500000x256.Idx → EReal) (ix2 e j) = argX m c (ix2 (Cert.EdgeSpec.nodeRow (argE m c (ix2 0 e))) j) := by
  rw [e_v4, takeV_apply _ _ e j (by rw [rowV0_apply]; exact hr 0 e), rowV0_apply]
theorem V_v5 (hr : ∀ (i : Fin 2) (e : Fin 500000), 0 ≤ (argE m c (ix2 i e)).toInt ∧ (argE m c (ix2 i e)).toInt < 100000)
    (e : Fin 500000) (j : Fin 256) :
    (V m c main_v5 : S500000x256.Idx → EReal) (ix2 e j) = argX m c (ix2 (Cert.EdgeSpec.nodeRow (argE m c (ix2 1 e))) j) := by
  rw [e_v5, takeV_apply _ _ e j (by rw [rowV1_apply]; exact hr 1 e), rowV1_apply]

theorem V_v6 (e : Fin 500000) : (V m c main_v6 : S500000x1.Idx → EReal) (ix2 e 0) = argA m c (ix1 e) := by
  have h : (V m c main_v6 : S500000x1.Idx → EReal) = shapeCast S500000x1 (argA m c) shapeCasts_S500000_S500000x1 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  exact shapeCast_a_a1_apply _ _ e 0
theorem V_v7 (e : Fin 500000) : (V m c main_v7 : S500000x1.Idx → BitVec 32) (ix2 e 0) = argB m c (ix1 e) := by
  have h : (V m c main_v7 : S500000x1.Idx → BitVec 32) = shapeCast S500000x1 (argB m c) shapeCasts_S500000_S500000x1 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  exact shapeCast_a_a1_apply _ _ e 0
theorem V_v8 (j : Fin 342) : (V m c main_v8 : S1x342.Idx → EReal) (ix2 0 j) = argB1 m c (ix1 j) := by
  have h : (V m c main_v8 : S1x342.Idx → EReal) = shapeCast S1x342 (argB1 m c) shapeCasts_S342_S1x342 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  exact shapeCast_a_1a_apply _ _ 0 j
theorem V_v9 (k : Fin 171) : (V m c main_v9 : S1x171.Idx → EReal) (ix2 0 k) = argB2 m c (ix1 k) := by
  have h : (V m c main_v9 : S1x171.Idx → EReal) = shapeCast S1x171 (argB2 m c) shapeCasts_S171_S1x171 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  exact shapeCast_a_1a_apply _ _ 0 k
theorem V_v10 : (V m c main_v10 : S1x1.Idx → EReal) (ix2 0 0) = argB3 m c (ix1 0) := by
  have h : (V m c main_v10 : S1x1.Idx → EReal) = shapeCast S1x1 (argB3 m c) shapeCasts_S1_S1x1 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  exact shapeCast_a_1a_apply _ _ 0 0

end Cert.KernelIdeal.HostValue
end
-- ==== Proof.KResult.lean ====
/-
  The kernel program's result column, read at a graph.

  At point `t` the body's payload at column `g` is the accumulator plus the contribution of tile `t`: the sum, over
  the tile's 2000 edges, of the edge's score when its graph id is the word of `g`. The blocks the point loads are the
  rows `2000 t … 2000 t + 1999` of the per-edge arrays and the whole parameter arrays; the per-edge arrays are what
  the host operations before the call made of the arguments (the gathered node rows, the attribute and graph-id
  columns, the bias rows). Summed over the 250 tiles that is the sum over all edges (`sum_tiles`), which is the
  specification's pooled score; the final reshape moves column `g` of the row to row `g` of the result.
-/
import proofs.«410209_j74431783239747_1_alg».proof.Proof.KAccum
import proofs.«410209_j74431783239747_1_alg».proof.Proof.KRun
import proofs.«410209_j74431783239747_1_alg».proof.Proof.PayValue
import proofs.«410209_j74431783239747_1_alg».proof.Proof.HostValue

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (c : Dev nD)

open Cert.KernelIdeal.HostValue Cert.EdgeSpec

/-- The argument arrays as the specification takes them. -/
abbrev sX : Fin 100000 → Fin 256 → EReal := fun n j => argX m c (ix2 n j)
abbrev sSrc : Fin 500000 → BitVec 32 := fun e => argE m c (ix2 0 e)
abbrev sDst : Fin 500000 → BitVec 32 := fun e => argE m c (ix2 1 e)
abbrev sAttr : Fin 500000 → EReal := fun e => argA m c (ix1 e)
abbrev sBatch : Fin 500000 → BitVec 32 := fun e => argB m c (ix1 e)
abbrev sW1 : Fin 513 → Fin 342 → EReal := fun i j => (m ((c.tc : Thread nD τ).loc main_arg4) : FVec Ideal S513x342 .f32) (ix2 i j)
abbrev sB1 : Fin 342 → EReal := fun j => argB1 m c (ix1 j)
abbrev sW2 : Fin 342 → Fin 171 → EReal := fun j k => (m ((c.tc : Thread nD τ).loc main_arg6) : FVec Ideal S342x171 .f32) (ix2 j k)
abbrev sB2 : Fin 171 → EReal := fun k => argB2 m c (ix1 k)
abbrev sW3 : Fin 171 → EReal := fun k => (m ((c.tc : Thread nD τ).loc main_arg8) : FVec Ideal S171x1 .f32) (ix2 k 0)
abbrev sB3 : EReal := argB3 m c (ix1 0)

/-- The score of edge `e` from the program's argument arrays. -/
abbrev sScore (e : Fin 500000) : EReal :=
  edgeScore (sX m c) (sSrc m c) (sDst m c) (sAttr m c) (sW1 m c) (sB1 m c) (sW2 m c) (sB2 m c) (sW3 m c) (sB3 m c) e

/-- Tile `t`'s contribution to graph `g`: the scores of its edges whose graph id is the word of `g`. -/
def contrib (t : Fin 250) (g : Fin 64) : EReal :=
  ∑ r : Fin 2000, (if sBatch m c (tileEdge t r) = BitVec.ofNat 32 g.val then (1 : EReal) else 0) * sScore m c (tileEdge t r)

variable (hr : ∀ (i : Fin 2) (e : Fin 500000), 0 ≤ (argE m c (ix2 i e)).toInt ∧ (argE m c (ix2 i e)).toInt < 100000)
include hr

/-- The body's payload at point `t`, read at column `g`: the accumulator plus the tile's contribution. -/
theorem pay_step (t : Fin cfg0.N) (acc : Vec Ideal S1x64 .f32) (g : Fin 64) :
    payAt m c t acc (ix2 0 g) = acc (ix2 0 g) + contrib m c (tile t) g := by
  refine (Cert.KernelIdeal.PayValue.pay_apply _ _ _ _ _ _ _ _ _ _ acc g).trans ?_
  unfold contrib
  refine congrArg (acc (ix2 0 g) + ·) (Finset.sum_congr rfl fun r _ => ?_)
  have e3 : (iblk m c 3 t : Vec Ideal S2000x1 .i32) (ix2 r 0) = sBatch m c (tileEdge (tile t) r) :=
    (blk3_apply m c t r 0).trans (V_v7 m c _)
  have e2 : (iblk m c 2 t : Vec Ideal S2000x1 .f32) (ix2 r 0) = sAttr m c (tileEdge (tile t) r) :=
    (blk2_apply m c t r 0).trans (V_v6 m c _)
  have e0 : (fun i : Fin 256 => (iblk m c 0 t : Vec Ideal S2000x256 .f32) (ix2 r i))
      = sX m c (nodeRow (sSrc m c (tileEdge (tile t) r))) :=
    funext fun i => (blk0_apply m c t r i).trans (V_v4 m c hr _ i)
  have e1 : (fun i : Fin 256 => (iblk m c 1 t : Vec Ideal S2000x256 .f32) (ix2 r i))
      = sX m c (nodeRow (sDst m c (tileEdge (tile t) r))) :=
    funext fun i => (blk1_apply m c t r i).trans (V_v5 m c hr _ i)
  have e4 : (fun (i : Fin 513) (j : Fin 342) => (iblk m c 4 t : Vec Ideal S513x342 .f32) (ix2 i j)) = sW1 m c :=
    funext fun i => funext fun j => by rw [blk4_eq m c t, V_main_arg4 m c]
  have e5 : (fun j : Fin 342 => (iblk m c 5 t : Vec Ideal S1x342 .f32) (ix2 0 j)) = sB1 m c :=
    funext fun j => by rw [blk5_eq m c t]; exact V_v8 m c j
  have e6 : (fun (j : Fin 342) (k : Fin 171) => (iblk m c 6 t : Vec Ideal S342x171 .f32) (ix2 j k)) = sW2 m c :=
    funext fun j => funext fun k => by rw [blk6_eq m c t, V_main_arg6 m c]
  have e7 : (fun k : Fin 171 => (iblk m c 7 t : Vec Ideal S1x171 .f32) (ix2 0 k)) = sB2 m c :=
    funext fun k => by rw [blk7_eq m c t]; exact V_v9 m c k
  have e8 : (fun k : Fin 171 => (iblk m c 8 t : Vec Ideal S171x1 .f32) (ix2 k 0)) = sW3 m c :=
    funext fun k => by rw [blk8_eq m c t, V_main_arg8 m c]
  have e9 : (iblk m c 9 t : Vec Ideal S1x1 .f32) (ix2 0 0) = sB3 m c := by
    rw [blk9_eq m c t]; exact V_v10 m c
  rw [e3, e2, e0, e1, e4, e5, e6, e7, e8, e9]
  rfl

/-- The output row at column `g` is graph `g`'s pooled score. -/
theorem result_apply (g : Fin 64) :
    (result m c : Vec Ideal S1x64 .f32) (ix2 0 g) = pooled (sBatch m c) (sScore m c) g := by
  show outsAt0 m c 249 h249 (ix2 0 g) = _
  rw [outsAt_last m c (contrib m c) (pay_step m c hr) g h249]
  unfold pooled contrib
  rw [sum_tiles]
  refine Finset.sum_congr rfl fun t _ => Finset.sum_congr rfl fun r _ => ?_
  by_cases hb : sBatch m c (tileEdge t r) = BitVec.ofNat 32 g.val
  · rw [if_pos hb, if_pos hb, one_mul]
  · rw [if_neg hb, if_neg hb, zero_mul]

/-- The program's result column at row `g`. -/
theorem column_apply (g : Fin 64) :
    (column m c : Vec Ideal S64x1 .f32) (ix2 g 0) = pooled (sBatch m c) (sScore m c) g := by
  refine Eq.trans ?_ (result_apply m c hr g)
  exact shapeCast_apply (result m c : Vec Ideal S1x64 .f32) shapeCasts_S1x64_S64x1 (ix2 g 0) (ix2 0 g)
    (by
      show (S1x64.rowMajor (ix2 0 g)).val = (S64x1.rowMajor (ix2 g 0)).val
      rw [Shape.rowMajor_val_two, Shape.rowMajor_val_two]
      show 0 * 64 + g.val = g.val * 1 + 0
      omega)

end Cert.KernelIdeal.KValue

end
-- ==== Proof.RefValue.lean ====
/-
  The reference's result, read at one graph.

  The reference gathers, for each of the 500000 edges, the feature row of the edge's source node and of its
  destination node (a negative node index counting from the end of the table), joins them with the edge's attribute
  into 513 features, runs the three-layer perceptron on every edge, and adds each edge's score into the row of the
  edge's graph. Read at graph `g`, that is the sum of the scores of the edges whose graph id is the word of `g`.
-/
import proofs.«410209_j74431783239747_1_alg».proof.Defs
import proofs.«410209_j74431783239747_1_alg».proof.Proof.Gen.ReferenceIdeal.Read
import proofs.«410209_j74431783239747_1_alg».proof.Proof.EdgeSpec

noncomputable section
open Idealize.ShloMosaic Idealize.ShloMosaic.ValueIdx Idealize.ShloMosaic.TcCoe Idealize.SL.Sem

namespace Cert.ReferenceIdeal.RefValue
open Cert.ReferenceIdeal Cert.ReferenceIdeal.Gen Cert.ReferenceIdeal.Read

/-- The source-node index column at edge `e`: the edge's source index, a negative one counted from the end. -/
theorem ref_index_src (x1 : (⟨S2x500000, .i32⟩ : BufTy).Contents (Elt Ideal)) (e : Fin 500000) :
    val_main_v7 (F := Ideal) x1 (ix2 e 0) = Cert.EdgeSpec.wrap (x1 (ix2 0 e)) := by
  have hi : idx_main_v0 (idx_main_v1 (idx_main_v7 (ix2 e (0 : Fin 1)))) = (ix2 0 e : S2x500000.Idx) :=
    funext fun a => Fin.ext (by
      match a with
      | ⟨0, _⟩ => rfl
      | ⟨1, _⟩ => exact Nat.mod_eq_of_lt e.isLt)
  rw [val_main_v7_apply, val_main_v6_apply, val_main_v3_apply, val_main_v5_apply, val_main_v1_apply, val_main_v0_apply,
    val_main_v2_apply, val_main_c_apply, val_main_v4_apply, val_main_c_0_apply, hi]
  rfl

/-- The destination-node index column at edge `e`. -/
theorem ref_index_dst (x1 : (⟨S2x500000, .i32⟩ : BufTy).Contents (Elt Ideal)) (e : Fin 500000) :
    val_main_v16 (F := Ideal) x1 (ix2 e 0) = Cert.EdgeSpec.wrap (x1 (ix2 1 e)) := by
  have hi : idx_main_v9 (idx_main_v10 (idx_main_v16 (ix2 e (0 : Fin 1)))) = (ix2 1 e : S2x500000.Idx) :=
    funext fun a => Fin.ext (by
      match a with
      | ⟨0, _⟩ => rfl
      | ⟨1, _⟩ => exact Nat.mod_eq_of_lt e.isLt)
  rw [val_main_v16_apply, val_main_v15_apply, val_main_v12_apply, val_main_v14_apply, val_main_v10_apply, val_main_v9_apply,
    val_main_v11_apply, val_main_c_1_apply, val_main_v13_apply, val_main_c_2_apply, hi]
  rfl

/-- The gathered source rows: edge `e`, feature `j` is the table at the edge's source row. -/
theorem ref_gather_src (x0 : (⟨S100000x256, .f32⟩ : BufTy).Contents (Elt Ideal)) (x1 : (⟨S2x500000, .i32⟩ : BufTy).Contents (Elt Ideal))
    (e : Fin 500000) (j : Fin 256) :
    val_main_v8 (F := Ideal) x0 x1 (ix2 e j) = x0 (ix2 (Cert.EdgeSpec.nodeRow (x1 (ix2 0 e))) j) := by
  unfold val_main_v8
  rw [Cert.Decode.gather_rows gather_S100000x256_S500000x1_S500000x256_1_0_n_n_0_1_1256 rfl rfl rfl rfl rfl rfl rfl x0 _ e j
    (by decide), ref_index_src]
  rfl

/-- The gathered destination rows. -/
theorem ref_gather_dst (x0 : (⟨S100000x256, .f32⟩ : BufTy).Contents (Elt Ideal)) (x1 : (⟨S2x500000, .i32⟩ : BufTy).Contents (Elt Ideal))
    (e : Fin 500000) (j : Fin 256) :
    val_main_v17 (F := Ideal) x0 x1 (ix2 e j) = x0 (ix2 (Cert.EdgeSpec.nodeRow (x1 (ix2 1 e))) j) := by
  unfold val_main_v17
  rw [Cert.Decode.gather_rows gather_S100000x256_S500000x1_S500000x256_1_0_n_n_0_1_1256 rfl rfl rfl rfl rfl rfl rfl x0 _ e j
    (by decide), ref_index_dst]
  rfl

/-- The attribute column at edge `e`. -/
theorem ref_attr (x2 : (⟨S500000, .f32⟩ : BufTy).Contents (Elt Ideal)) (e : Fin 500000) :
    val_main_v18 (F := Ideal) x2 (ix2 e 0) = x2 (ix1 e) := by
  rw [val_main_v18_apply]
  exact congrArg x2 (funext fun a => Fin.ext (by match a with | ⟨0, _⟩ => rfl))

/-- The joined feature rows: edge `e`'s 513 features are its source row, its destination row and its attribute. -/
theorem ref_feat (x0 : (⟨S100000x256, .f32⟩ : BufTy).Contents (Elt Ideal)) (x1 : (⟨S2x500000, .i32⟩ : BufTy).Contents (Elt Ideal))
    (x2 : (⟨S500000, .f32⟩ : BufTy).Contents (Elt Ideal)) (e : Fin 500000) (i : Fin 513) :
    val_main_v19 (F := Ideal) x0 x1 x2 (ix2 e i)
      = Cert.EdgeSpec.feat (fun j => x0 (ix2 (Cert.EdgeSpec.nodeRow (x1 (ix2 0 e))) j))
          (fun j => x0 (ix2 (Cert.EdgeSpec.nodeRow (x1 (ix2 1 e))) j)) (x2 (ix1 e)) i := by
  unfold val_main_v19 Cert.EdgeSpec.feat
  by_cases h1 : i.val < 256
  · rw [dif_pos h1]
    refine (concatenate_apply_piece (t := S500000x513) 1 _ _ (ix2 e i) 0 (by show (0 : Nat) < 3; omega) S500000x256 _ rfl rfl 0 rfl
      (ix2 e ⟨i.val, h1⟩) (fun b hb => ?_) ?_).trans (ref_gather_src x0 x1 e ⟨i.val, h1⟩)
    · match b with
      | ⟨0, _⟩ => rfl
      | ⟨1, _⟩ => exact absurd rfl hb
    · show 0 + i.val = i.val
      omega
  · rw [dif_neg h1]
    by_cases h2 : i.val < 512
    · rw [dif_pos h2]
      refine (concatenate_apply_piece (t := S500000x513) 1 _ _ (ix2 e i) 1 (by show (1 : Nat) < 3; omega) S500000x256 _ rfl rfl 256 rfl
        (ix2 e ⟨i.val - 256, by omega⟩) (fun b hb => ?_) ?_).trans (ref_gather_dst x0 x1 e ⟨i.val - 256, by omega⟩)
      · match b with
        | ⟨0, _⟩ => rfl
        | ⟨1, _⟩ => exact absurd rfl hb
      · show 256 + (i.val - 256) = i.val
        omega
    · rw [dif_neg h2]
      refine (concatenate_apply_piece (t := S500000x513) 1 _ _ (ix2 e i) 2 (by show (2 : Nat) < 3; omega) S500000x1 _ rfl rfl 512 rfl
        (ix2 e 0) (fun b hb => ?_) ?_).trans (ref_attr x2 e)
      · match b with
        | ⟨0, _⟩ => rfl
        | ⟨1, _⟩ => exact absurd rfl hb
      · show 512 + 0 = i.val
        have := i.isLt
        omega

/-- The first hidden layer at edge `e`, unit `j`, from the edge's joined features. -/
theorem ref_hidden1 (x0 : (⟨S100000x256, .f32⟩ : BufTy).Contents (Elt Ideal)) (x1 : (⟨S2x500000, .i32⟩ : BufTy).Contents (Elt Ideal)) (x2 : (⟨S500000, .f32⟩ : BufTy).Contents (Elt Ideal))
    (x4 : (⟨S513x342, .f32⟩ : BufTy).Contents (Elt Ideal)) (x5 : (⟨S342, .f32⟩ : BufTy).Contents (Elt Ideal)) (e : Fin 500000) (j : Fin 342) :
    val_main_v24 (F := Ideal) x0 x1 x2 x4 x5 (ix2 e j)
      = Cert.EdgeSpec.hidden1 (fun i j => x4 (ix2 i j)) (fun j => x5 (ix1 j))
          (fun i => val_main_v19 (F := Ideal) x0 x1 x2 (ix2 e i)) j := by
  have hb : idx_main_v21 (idx_main_v22 (ix2 e j)) = (ix1 j : S342.Idx) :=
    funext fun a => Fin.ext (by match a with | ⟨0, _⟩ => rfl)
  have hl : ∀ k : Fin 513, lidx_main_v20 (ix2 e j) k = (ix2 e k : S500000x513.Idx) := fun k =>
    funext fun a => Fin.ext (by match a with | ⟨0, _⟩ => rfl | ⟨1, _⟩ => rfl)
  have hr : ∀ k : Fin 513, ridx_main_v20 (ix2 e j) k = (ix2 k j : S513x342.Idx) := fun k =>
    funext fun a => Fin.ext (by match a with | ⟨0, _⟩ => rfl | ⟨1, _⟩ => rfl)
  rw [val_main_v24_apply, val_main_v23_apply, val_main_v20_apply, val_main_v22_apply, val_main_v21_apply,
    val_main_call0_v0_apply, val_main_call0_cst_apply, hb]
  simp only [hl, hr]
  rw [Ideal.maximumf_def, Ideal.addf_def, Ideal.ofBits_def, Ideal.ofBits_zero_f32]
  rfl

/-- The second hidden layer at edge `e`, unit `k`, from the first. -/
theorem ref_hidden2 (x0 : (⟨S100000x256, .f32⟩ : BufTy).Contents (Elt Ideal)) (x1 : (⟨S2x500000, .i32⟩ : BufTy).Contents (Elt Ideal)) (x2 : (⟨S500000, .f32⟩ : BufTy).Contents (Elt Ideal))
    (x4 : (⟨S513x342, .f32⟩ : BufTy).Contents (Elt Ideal)) (x5 : (⟨S342, .f32⟩ : BufTy).Contents (Elt Ideal)) (x6 : (⟨S342x171, .f32⟩ : BufTy).Contents (Elt Ideal)) (x7 : (⟨S171, .f32⟩ : BufTy).Contents (Elt Ideal)) (e : Fin 500000) (k : Fin 171) :
    val_main_v29 (F := Ideal) x0 x1 x2 x4 x5 x6 x7 (ix2 e k)
      = Cert.EdgeSpec.hidden2 (fun j k => x6 (ix2 j k)) (fun k => x7 (ix1 k))
          (fun j => val_main_v24 (F := Ideal) x0 x1 x2 x4 x5 (ix2 e j)) k := by
  have hb : idx_main_v26 (idx_main_v27 (ix2 e k)) = (ix1 k : S171.Idx) :=
    funext fun a => Fin.ext (by match a with | ⟨0, _⟩ => rfl)
  have hl : ∀ j : Fin 342, lidx_main_v25 (ix2 e k) j = (ix2 e j : S500000x342.Idx) := fun j =>
    funext fun a => Fin.ext (by match a with | ⟨0, _⟩ => rfl | ⟨1, _⟩ => rfl)
  have hr : ∀ j : Fin 342, ridx_main_v25 (ix2 e k) j = (ix2 j k : S342x171.Idx) := fun j =>
    funext fun a => Fin.ext (by match a with | ⟨0, _⟩ => rfl | ⟨1, _⟩ => rfl)
  rw [val_main_v29_apply, val_main_v28_apply, val_main_v25_apply, val_main_v27_apply, val_main_v26_apply,
    val_main_call1_v0_apply, val_main_call1_cst_apply, hb]
  simp only [hl, hr]
  rw [Ideal.maximumf_def, Ideal.addf_def, Ideal.ofBits_def, Ideal.ofBits_zero_f32]
  rfl

/-- The perceptron's output at edge `e` is the edge's score. -/
theorem ref_score (x0 : (⟨S100000x256, .f32⟩ : BufTy).Contents (Elt Ideal)) (x1 : (⟨S2x500000, .i32⟩ : BufTy).Contents (Elt Ideal)) (x2 : (⟨S500000, .f32⟩ : BufTy).Contents (Elt Ideal))
    (x4 : (⟨S513x342, .f32⟩ : BufTy).Contents (Elt Ideal)) (x5 : (⟨S342, .f32⟩ : BufTy).Contents (Elt Ideal)) (x6 : (⟨S342x171, .f32⟩ : BufTy).Contents (Elt Ideal)) (x7 : (⟨S171, .f32⟩ : BufTy).Contents (Elt Ideal))
    (x8 : (⟨S171x1, .f32⟩ : BufTy).Contents (Elt Ideal)) (x9 : (⟨S1, .f32⟩ : BufTy).Contents (Elt Ideal)) (e : Fin 500000) :
    val_main_v33 (F := Ideal) x0 x1 x2 x4 x5 x6 x7 x8 x9 (ix2 e 0)
      = Cert.EdgeSpec.edgeScore (fun n j => x0 (ix2 n j)) (fun e => x1 (ix2 0 e)) (fun e => x1 (ix2 1 e)) (fun e => x2 (ix1 e))
          (fun i j => x4 (ix2 i j)) (fun j => x5 (ix1 j)) (fun j k => x6 (ix2 j k)) (fun k => x7 (ix1 k)) (fun k => x8 (ix2 k 0)) (x9 (ix1 0)) e := by
  have hb : idx_main_v31 (idx_main_v32 (ix2 e (0 : Fin 1))) = (ix1 0 : S1.Idx) :=
    funext fun a => Fin.ext (by match a with | ⟨0, _⟩ => rfl)
  have hl : ∀ k : Fin 171, lidx_main_v30 (ix2 e (0 : Fin 1)) k = (ix2 e k : S500000x171.Idx) := fun k =>
    funext fun a => Fin.ext (by match a with | ⟨0, _⟩ => rfl | ⟨1, _⟩ => rfl)
  have hr : ∀ k : Fin 171, ridx_main_v30 (ix2 e (0 : Fin 1)) k = (ix2 k 0 : S171x1.Idx) := fun k =>
    funext fun a => Fin.ext (by match a with | ⟨0, _⟩ => rfl | ⟨1, _⟩ => rfl)
  -- the layers below, as functions of the unit
  have h19 : (fun i => val_main_v19 (F := Ideal) x0 x1 x2 (ix2 e i))
      = Cert.EdgeSpec.feat (fun j => x0 (ix2 (Cert.EdgeSpec.nodeRow (x1 (ix2 0 e))) j))
          (fun j => x0 (ix2 (Cert.EdgeSpec.nodeRow (x1 (ix2 1 e))) j)) (x2 (ix1 e)) := funext fun i => ref_feat x0 x1 x2 e i
  have h24 : (fun j => val_main_v24 (F := Ideal) x0 x1 x2 x4 x5 (ix2 e j))
      = Cert.EdgeSpec.hidden1 (fun i j => x4 (ix2 i j)) (fun j => x5 (ix1 j))
          (Cert.EdgeSpec.feat (fun j => x0 (ix2 (Cert.EdgeSpec.nodeRow (x1 (ix2 0 e))) j))
            (fun j => x0 (ix2 (Cert.EdgeSpec.nodeRow (x1 (ix2 1 e))) j)) (x2 (ix1 e))) := funext fun j => by
    rw [ref_hidden1, h19]
  have h29 : ∀ k : Fin 171, val_main_v29 (F := Ideal) x0 x1 x2 x4 x5 x6 x7 (ix2 e k)
      = Cert.EdgeSpec.hidden2 (fun j k => x6 (ix2 j k)) (fun k => x7 (ix1 k))
          (Cert.EdgeSpec.hidden1 (fun i j => x4 (ix2 i j)) (fun j => x5 (ix1 j))
            (Cert.EdgeSpec.feat (fun j => x0 (ix2 (Cert.EdgeSpec.nodeRow (x1 (ix2 0 e))) j))
              (fun j => x0 (ix2 (Cert.EdgeSpec.nodeRow (x1 (ix2 1 e))) j)) (x2 (ix1 e)))) k := fun k => by
    rw [ref_hidden2, h24]
  rw [val_main_v33_apply, val_main_v30_apply, val_main_v32_apply, val_main_v31_apply, hb]
  simp only [hl, hr, h29]
  rw [Ideal.addf_def]
  rfl

/-- **The reference's result at graph `g`**: the sum of the scores of the edges whose graph id is the word of `g`. -/
theorem ref_apply (x0 : (⟨S100000x256, .f32⟩ : BufTy).Contents (Elt Ideal)) (x1 : (⟨S2x500000, .i32⟩ : BufTy).Contents (Elt Ideal))
    (x2 : (⟨S500000, .f32⟩ : BufTy).Contents (Elt Ideal)) (x3 : (⟨S500000, .i32⟩ : BufTy).Contents (Elt Ideal))
    (x4 : (⟨S513x342, .f32⟩ : BufTy).Contents (Elt Ideal)) (x5 : (⟨S342, .f32⟩ : BufTy).Contents (Elt Ideal))
    (x6 : (⟨S342x171, .f32⟩ : BufTy).Contents (Elt Ideal)) (x7 : (⟨S171, .f32⟩ : BufTy).Contents (Elt Ideal))
    (x8 : (⟨S171x1, .f32⟩ : BufTy).Contents (Elt Ideal)) (x9 : (⟨S1, .f32⟩ : BufTy).Contents (Elt Ideal)) (g : Fin 64) :
    val_main_v36 (F := Ideal) x0 x1 x2 x3 x4 x5 x6 x7 x8 x9 (ix2 g 0)
      = Cert.EdgeSpec.pooled (fun e => x3 (ix1 e))
          (Cert.EdgeSpec.edgeScore (fun n j => x0 (ix2 n j)) (fun e => x1 (ix2 0 e)) (fun e => x1 (ix2 1 e)) (fun e => x2 (ix1 e))
            (fun i j => x4 (ix2 i j)) (fun j => x5 (ix1 j)) (fun j k => x6 (ix2 j k)) (fun k => x7 (ix1 k)) (fun k => x8 (ix2 k 0)) (x9 (ix1 0))) g := by
  unfold val_main_v36
  rw [Cert.Decode.scatterAdd_rows scatter_S64x1_S500000x1_S500000x1_1_0_0_1 rfl rfl rfl rfl _ _ _ g 0,
    val_main_v34_apply, val_main_cst_apply, Ideal.ofBits_def, Ideal.ofBits_zero_f32, zero_add]
  unfold Cert.EdgeSpec.pooled
  rw [← Finset.sum_filter]
  refine Finset.sum_congr (Finset.filter_congr fun e _ => ?_) fun e _ => ref_score x0 x1 x2 x4 x5 x6 x7 x8 x9 e
  -- an edge's graph id lands on row g exactly when it is the word of g
  rw [val_main_v35_apply, Cert.Decode.landing_eq_some_iff (by decide)]
  exact iff_of_eq (congrArg (fun w => w = BitVec.ofNat 32 g.val)
    (congrArg x3 (funext fun a => Fin.ext (by match a with | ⟨0, _⟩ => rfl))))

end Cert.ReferenceIdeal.RefValue
end
-- ==== Proof.PreFacts.lean ====
/-
  The precondition decoded: every entry of the [2, 500000] table of node indices lies in [0, 100000).

  The precondition is printed as a chain of `and`s of nine scalar bits, and the claim states that the result is 1. The last
  bit is the reduction by `and`, over both axes, of the [2, 500000] array of bits
  `(a1 ≥ 0) and (a1 < 100000)`, both comparisons signed. A chain of `and`s is 1 only when each bit is 1; a reduction by
  `and` into one scalar is 1 only when every element of the array is 1; and an element's bit being 1 says that both signed
  comparisons hold of that entry.
-/
import proofs.«410209_j74431783239747_1_alg».proof.Pre_finite_inputs
import Idealize.ShloMosaic.Lib.ReduceAll
import Idealize.ShloMosaic.Lib.StableHlo.Predicate
import Idealize.ShloMosaic.Lib.ValueIdx

noncomputable section
open Idealize.ShloMosaic Idealize.ShloMosaic.ValueIdx

namespace Cert.PreFacts

open Cert.Pre_finite_inputs

/-- The rank-0 shape has one index. -/
theorem subsingleton_scalar_idx : Subsingleton S_.Idx := ⟨fun a b => funext fun d => d.elim0⟩

/-- A word whose two signed comparisons against the literals 0 and 100000 both hold lies in [0, 100000). -/
theorem range_of_bits (w : BitVec 32)
    (hb : IntOp.andi (IntOp.cmpi .sge w 0#32) (IntOp.cmpi .slt w 100000#32) = 1#1) :
    0 ≤ w.toInt ∧ w.toInt < 100000 := by
  obtain ⟨hge, hlt⟩ := IntOp.andi_eq_one.1 hb
  have h0 : (0#32 : BitVec 32).toInt = 0 := by decide
  have h1 : (100000#32 : BitVec 32).toInt = 100000 := by decide
  have hge' := IntOp.cmpi_sge.1 hge
  have hlt' := IntOp.cmpi_slt.1 hlt
  rw [h0] at hge'
  rw [h1] at hlt'
  exact ⟨hge', hlt'⟩

theorem edge_in_range [Cert.Pre_finite_inputs.Facts]
    (a0 : FVec Ideal Cert.Pre_finite_inputs.S100000x256 .f32) (a1 : IVec Cert.Pre_finite_inputs.S2x500000 32)
    (a2 : FVec Ideal Cert.Pre_finite_inputs.S500000 .f32) (a3 : IVec Cert.Pre_finite_inputs.S500000 32)
    (a4 : FVec Ideal Cert.Pre_finite_inputs.S513x342 .f32) (a5 : FVec Ideal Cert.Pre_finite_inputs.S342 .f32)
    (a6 : FVec Ideal Cert.Pre_finite_inputs.S342x171 .f32) (a7 : FVec Ideal Cert.Pre_finite_inputs.S171 .f32)
    (a8 : FVec Ideal Cert.Pre_finite_inputs.S171x1 .f32) (a9 : FVec Ideal Cert.Pre_finite_inputs.S1 .f32)
    (h : Cert.Pre_finite_inputs.fn (F := Ideal) a0 a1 a2 a3 a4 a5 a6 a7 a8 a9 = fun _ => 1#1) (i : Fin 2) (e : Fin 500000) :
    0 ≤ (a1 (ix2 i e)).toInt ∧ (a1 (ix2 i e)).toInt < 100000 := by
  -- the scalar result at its one index
  have hs := congrFun h ix0
  -- the chain of lets, unfolded: the result is the `and` of the first eight bits with the ninth
  dsimp only [Cert.Pre_finite_inputs.fn, Cert.Pre_finite_inputs.fn_part1, Cert.Pre_finite_inputs.fn_part2] at hs
  -- the ninth bit: the reduction of the range test over both axes
  have h9 := (IntOp.andi_eq_one.1 hs).2
  -- every element of the reduced array is 1
  haveI := subsingleton_scalar_idx
  have hel := Host.reduce_andi_all _ _ _ _ _ h9 (ix2 i e)
  -- at the element, both broadcast literals read the literal
  exact range_of_bits _ hel

end Cert.PreFacts

end
-- ==== Proof.lean ====
/-
  The certificate of the edge-regression head: a perceptron over per-edge features pooled by graph.

  Both programs gather, for each of 500000 edges, the feature rows of its two end nodes from a 100000-row table, join
  them with the edge's attribute into 513 features, run the same three-layer perceptron (two hidden layers with
  `relu`) to one score per edge, and add each edge's score into the row of the edge's graph among 64 graphs.

  The kernel program does the gathering first, then runs its body over a grid of 250 tiles of 2000 edges: each grid point
  computes its tile's scores, multiplies them by the one-hot mask `graph id = g` (a word compare against 0 … 63),
  sums over the tile's rows, and adds the [1,64] row into an output block it carries from point to point, reset at
  the first point and written back after the last; a final reshape makes the row a [64,1] column. The reference does
  the perceptron on all edges at once and pools with a scatter-add, which reads the graph id signed and drops an id
  outside 0 … 63 — as the mask does, matching no column.

  On the extended reals both results at graph `g` are the sum over the edges whose graph id is the word of `g` of the
  edge's score (`Cert.EdgeSpec.pooled`): the kernel's by induction over the grid points (each adds its tile's
  contribution; `0 · x = 0`, `1 · x = x` and the order of a finite sum are all the algebra needed, so no finiteness
  is used), the reference's by reading its scatter. The one place the two programs differ is a node index outside the
  table: the kernel's `take` fills such a row with a not-a-number pattern, the reference's indexing clamps. The
  precondition therefore carries, besides finiteness, that every node index lies in [0, 100000); under it the kernel's
  in-bounds mask is all ones and both gathers read the same rows.

  The three frames: the kernel's two are the generated frames; the reference's is its generated run with the result
  dropped. The ideal pass rewrote nothing, so `preserves` is `True`.
-/
import proofs.«410209_j74431783239747_1_alg».proof.Defs
import proofs.«410209_j74431783239747_1_alg».proof.Proof.Gen.Kernel
import proofs.«410209_j74431783239747_1_alg».proof.Proof.Gen.Kernel.Skeleton
import proofs.«410209_j74431783239747_1_alg».proof.Proof.Gen.Kernel.Launch
import proofs.«410209_j74431783239747_1_alg».proof.Proof.Gen.Kernel.Points
import proofs.«410209_j74431783239747_1_alg».proof.Proof.Gen.Kernel.Frame
import proofs.«410209_j74431783239747_1_alg».proof.Proof.Gen.KernelIdeal
import proofs.«410209_j74431783239747_1_alg».proof.Proof.Gen.KernelIdeal.Skeleton
import proofs.«410209_j74431783239747_1_alg».proof.Proof.Gen.KernelIdeal.Launch
import proofs.«410209_j74431783239747_1_alg».proof.Proof.Gen.KernelIdeal.Points
import proofs.«410209_j74431783239747_1_alg».proof.Proof.Gen.KernelIdeal.Frame
import proofs.«410209_j74431783239747_1_alg».proof.Proof.Gen.ReferenceIdeal
import proofs.«410209_j74431783239747_1_alg».proof.Proof.Gen.Pre_finite_inputs
import proofs.«410209_j74431783239747_1_alg».proof.Proof.Gen.ReferenceIdeal.Run
import proofs.«410209_j74431783239747_1_alg».proof.Proof.Gen.ReferenceIdeal.Read
import proofs.«410209_j74431783239747_1_alg».proof.Proof.KResult
import proofs.«410209_j74431783239747_1_alg».proof.Proof.RefValue
import proofs.«410209_j74431783239747_1_alg».proof.Proof.PreFacts
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every node index lies in the table. -/
theorem node_in_range (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 2) (e : Fin 500000) :
    0 ≤ (Cert.KernelIdeal.HostValue.argE m c (ix2 i e)).toInt ∧ (Cert.KernelIdeal.HostValue.argE m c (ix2 i e)).toInt < 100000 :=
  Cert.PreFacts.edge_in_range _ _ _ _ _ _ _ _ _ _ (hpre c) i e

/-- Both programs' results at graph `g` are the pooled score of `g`, of arguments that agree. -/
theorem algebraic : Cert.algebraic_KernelIdeal_ReferenceIdeal := by
  intro m ρ m' ρ' hpre hagree
  refine ⟨fun c => Cert.KernelIdeal.KValue.column m c, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq _ _ _ _ _ _ _ _ _ _).trans ?_
  funext i
  obtain ⟨g, z, rfl⟩ : ∃ (g : Fin 64) (z : Fin 1), i = ix2 g z := ⟨i 0, i 1, eq_ix2 i⟩
  obtain rfl : z = 0 := Subsingleton.elim _ _
  rw [Cert.ReferenceIdeal.RefValue.ref_apply]
  refine Eq.trans ?_ (Cert.KernelIdeal.KValue.column_apply m c (node_in_range m hpre c) g).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
